-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x30 : Shape := ⟨2, ![100000, 30]⟩
abbrev S2000000x100 : Shape := ⟨2, ![2000000, 100]⟩
abbrev S2000000 : Shape := ⟨1, ![2000000]⟩
abbrev S30x60 : Shape := ⟨2, ![30, 60]⟩
abbrev S100x60 : Shape := ⟨2, ![100, 60]⟩
abbrev S60x30 : Shape := ⟨2, ![60, 30]⟩
abbrev S60 : Shape := ⟨1, ![60]⟩
abbrev S_ : Shape := ⟨0, ![]⟩

class Facts : Prop where
  bcast_S_S100000x30 : S_.BroadcastsInDim S100000x30 (![] : Fin 0 → Fin S100000x30.rank)
  reducesTo_S100000x30_S_d0_1 : S100000x30.ReducesTo [0, 1] S_
  h_S_ : 0 < S_.numel
  bcast_S_S2000000x100 : S_.BroadcastsInDim S2000000x100 (![] : Fin 0 → Fin S2000000x100.rank)
  reducesTo_S2000000x100_S_d0_1 : S2000000x100.ReducesTo [0, 1] S_
  bcast_S_S30x60 : S_.BroadcastsInDim S30x60 (![] : Fin 0 → Fin S30x60.rank)
  reducesTo_S30x60_S_d0_1 : S30x60.ReducesTo [0, 1] S_
  bcast_S_S100x60 : S_.BroadcastsInDim S100x60 (![] : Fin 0 → Fin S100x60.rank)
  reducesTo_S100x60_S_d0_1 : S100x60.ReducesTo [0, 1] S_
  bcast_S_S60x30 : S_.BroadcastsInDim S60x30 (![] : Fin 0 → Fin S60x30.rank)
  reducesTo_S60x30_S_d0_1 : S60x30.ReducesTo [0, 1] S_
  bcast_S_S60 : S_.BroadcastsInDim S60 (![] : Fin 0 → Fin S60.rank)
  reducesTo_S60_S_d0 : S60.ReducesTo [0] S_
  bcast_S_S2000000 : S_.BroadcastsInDim S2000000 (![] : Fin 0 → Fin S2000000.rank)
  reducesTo_S2000000_S_d0 : S2000000.ReducesTo [0] S_

variable [Facts]

def fn_part2 {F : FTy → Type} [FloatOps F] (main_arg3 : IVec S2000000 32) (main_v33 : IVec S_ 1) : IVec S_ 1 :=
  let main_c_12 : IVec S_ 32 := constantI S_ 32 4294867296#32
  let main_v34 : IVec S2000000 32 := broadcastInDim S2000000 ![] bcast_S_S2000000 main_c_12
  let main_v35 : IVec S2000000 1 := cmpi .sge main_arg3 main_v34
  let main_c_13 : IVec S_ 32 := constantI S_ 32 100000#32
  let main_v36 : IVec S2000000 32 := broadcastInDim S2000000 ![] bcast_S_S2000000 main_c_13
  let main_v37 : IVec S2000000 1 := cmpi .slt main_arg3 main_v36
  let main_v38 : IVec S2000000 1 := andi main_v35 main_v37
  let main_c_14 : IVec S_ 1 := constantI S_ 1 1#1
  let main_v39 : IVec S_ 1 := (fun x v => Host.reduce IntOp.andi x v reducesTo_S2000000_S_d0 h_S_) main_v38 main_c_14
  let main_v40 : IVec S_ 1 := andi main_v33 main_v39
  main_v40

def fn_part1 {F : FTy → Type} [FloatOps F] (main_arg3 : IVec S2000000 32) (main_arg6 : FVec F S60x30 .f32) (main_arg7 : FVec F S60 .f32) (main_arg8 : FVec F S60 .f32) (main_v13 : IVec S_ 1) (main_v16 : IVec S100x60 1) : IVec S_ 1 :=
  let main_c_5 : IVec S_ 1 := constantI S_ 1 1#1
  let main_v17 : IVec S_ 1 := (fun x v => Host.reduce IntOp.andi x v reducesTo_S100x60_S_d0_1 h_S_) main_v16 main_c_5
  let main_v18 : IVec S_ 1 := andi main_v13 main_v17
  let main_v19 : FVec F S60x30 .f32 := Host.absf main_arg6
  let main_cst_6 : FVec F S_ .f32 := constant S_ .f32 0x7F800000#32
  let main_v20 : FVec F S60x30 .f32 := broadcastInDim S60x30 ![] bcast_S_S60x30 main_cst_6
  let main_v21 : IVec S60x30 1 := cmpf .olt main_v19 main_v20
  let main_c_7 : IVec S_ 1 := constantI S_ 1 1#1
  let main_v22 : IVec S_ 1 := (fun x v => Host.reduce IntOp.andi x v reducesTo_S60x30_S_d0_1 h_S_) main_v21 main_c_7
  let main_v23 : IVec S_ 1 := andi main_v18 main_v22
  let main_v24 : FVec F S60 .f32 := Host.absf main_arg7
  let main_cst_8 : FVec F S_ .f32 := constant S_ .f32 0x7F800000#32
  let main_v25 : FVec F S60 .f32 := broadcastInDim S60 ![] bcast_S_S60 main_cst_8
  let main_v26 : IVec S60 1 := cmpf .olt main_v24 main_v25
  let main_c_9 : IVec S_ 1 := constantI S_ 1 1#1
  let main_v27 : IVec S_ 1 := (fun x v => Host.reduce IntOp.andi x v reducesTo_S60_S_d0 h_S_) main_v26 main_c_9
  let main_v28 : IVec S_ 1 := andi main_v23 main_v27
  let main_v29 : FVec F S60 .f32 := Host.absf main_arg8
  let main_cst_10 : FVec F S_ .f32 := constant S_ .f32 0x7F800000#32
  let main_v30 : FVec F S60 .f32 := broadcastInDim S60 ![] bcast_S_S60 main_cst_10
  let main_v31 : IVec S60 1 := cmpf .olt main_v29 main_v30
  let main_c_11 : IVec S_ 1 := constantI S_ 1 1#1
  let main_v32 : IVec S_ 1 := (fun x v => Host.reduce IntOp.andi x v reducesTo_S60_S_d0 h_S_) main_v31 main_c_11
  let main_v33 : IVec S_ 1 := andi main_v28 main_v32
  fn_part2 (F := F) main_arg3 main_v33

def fn {F : FTy → Type} [FloatOps F] (main_arg0 : FVec F S100000x30 .f32) (main_arg1 : FVec F S2000000x100 .f32) (main_arg2 : IVec S2000000 32) (main_arg3 : IVec S2000000 32) (main_arg4 : FVec F S30x60 .f32) (main_arg5 : FVec F S100x60 .f32) (main_arg6 : FVec F S60x30 .f32) (main_arg7 : FVec F S60 .f32) (main_arg8 : FVec F S60 .f32) : IVec S_ 1 :=
  let main_v0 : FVec F S100000x30 .f32 := Host.absf main_arg0
  let main_cst : FVec F S_ .f32 := constant S_ .f32 0x7F800000#32
  let main_v1 : FVec F S100000x30 .f32 := broadcastInDim S100000x30 ![] bcast_S_S100000x30 main_cst
  let main_v2 : IVec S100000x30 1 := cmpf .olt main_v0 main_v1
  let main_c : IVec S_ 1 := constantI S_ 1 1#1
  let main_v3 : IVec S_ 1 := (fun x v => Host.reduce IntOp.andi x v reducesTo_S100000x30_S_d0_1 h_S_) main_v2 main_c
  let main_v4 : FVec F S2000000x100 .f32 := Host.absf main_arg1
  let main_cst_0 : FVec F S_ .f32 := constant S_ .f32 0x7F800000#32
  let main_v5 : FVec F S2000000x100 .f32 := broadcastInDim S2000000x100 ![] bcast_S_S2000000x100 main_cst_0
  let main_v6 : IVec S2000000x100 1 := cmpf .olt main_v4 main_v5
  let main_c_1 : IVec S_ 1 := constantI S_ 1 1#1
  let main_v7 : IVec S_ 1 := (fun x v => Host.reduce IntOp.andi x v reducesTo_S2000000x100_S_d0_1 h_S_) main_v6 main_c_1
  let main_v8 : IVec S_ 1 := andi main_v3 main_v7
  let main_v9 : FVec F S30x60 .f32 := Host.absf main_arg4
  let main_cst_2 : FVec F S_ .f32 := constant S_ .f32 0x7F800000#32
  let main_v10 : FVec F S30x60 .f32 := broadcastInDim S30x60 ![] bcast_S_S30x60 main_cst_2
  let main_v11 : IVec S30x60 1 := cmpf .olt main_v9 main_v10
  let main_c_3 : IVec S_ 1 := constantI S_ 1 1#1
  let main_v12 : IVec S_ 1 := (fun x v => Host.reduce IntOp.andi x v reducesTo_S30x60_S_d0_1 h_S_) main_v11 main_c_3
  let main_v13 : IVec S_ 1 := andi main_v8 main_v12
  let main_v14 : FVec F S100x60 .f32 := Host.absf main_arg5
  let main_cst_4 : FVec F S_ .f32 := constant S_ .f32 0x7F800000#32
  let main_v15 : FVec F S100x60 .f32 := broadcastInDim S100x60 ![] bcast_S_S100x60 main_cst_4
  let main_v16 : IVec S100x60 1 := cmpf .olt main_v14 main_v15
  fn_part1 (F := F) main_arg3 main_arg6 main_arg7 main_arg8 main_v13 main_v16
-- ==== Kernel.lean ====
abbrev S100000x30 : Shape := ⟨2, ![100000, 30]⟩
abbrev S2000000x100 : Shape := ⟨2, ![2000000, 100]⟩
abbrev S2000000 : Shape := ⟨1, ![2000000]⟩
abbrev S30x60 : Shape := ⟨2, ![30, 60]⟩
abbrev S100x60 : Shape := ⟨2, ![100, 60]⟩
abbrev S60x30 : Shape := ⟨2, ![60, 30]⟩
abbrev S60 : Shape := ⟨1, ![60]⟩
abbrev S1x60 : Shape := ⟨2, ![1, 60]⟩
abbrev S100000x60 : Shape := ⟨2, ![100000, 60]⟩
abbrev S2000x30 : Shape := ⟨2, ![2000, 30]⟩
abbrev S2000x60 : Shape := ⟨2, ![2000, 60]⟩
abbrev S_ : Shape := ⟨0, ![]⟩
abbrev S2000000x1 : Shape := ⟨2, ![2000000, 1]⟩
abbrev S1 : Shape := ⟨1, ![1]⟩
abbrev S1x1 : Shape := ⟨2, ![1, 1]⟩
abbrev S2000000x60 : Shape := ⟨2, ![2000000, 60]⟩
abbrev S2000000x30 : Shape := ⟨2, ![2000000, 30]⟩
abbrev S5000x100 : Shape := ⟨2, ![5000, 100]⟩
abbrev S5000x60 : Shape := ⟨2, ![5000, 60]⟩
abbrev S5000x30 : Shape := ⟨2, ![5000, 30]⟩

abbrev nBuf : Space → Nat
  | .hbm => 44
  | .vmem => 19
  | .smem => 0
  | _ => 0

abbrev bufTy : (tb : Table) → Fin (tcTables nBuf tb) → BufTy
  | .hbm, ⟨0, _⟩ => ⟨S100000x30, .f32⟩
  | .hbm, ⟨1, _⟩ => ⟨S2000000x100, .f32⟩
  | .hbm, ⟨2, _⟩ => ⟨S2000000, .i32⟩
  | .hbm, ⟨3, _⟩ => ⟨S2000000, .i32⟩
  | .hbm, ⟨4, _⟩ => ⟨S30x60, .f32⟩
  | .hbm, ⟨5, _⟩ => ⟨S100x60, .f32⟩
  | .hbm, ⟨6, _⟩ => ⟨S60x30, .f32⟩
  | .hbm, ⟨7, _⟩ => ⟨S60, .f32⟩
  | .hbm, ⟨8, _⟩ => ⟨S60, .f32⟩
  | .hbm, ⟨9, _⟩ => ⟨S1x60, .f32⟩
  | .hbm, ⟨10, _⟩ => ⟨S1x60, .f32⟩
  | .hbm, ⟨11, _⟩ => ⟨S100000x60, .f32⟩
  | .hbm, ⟨12, _⟩ => ⟨S100000x30, .f32⟩
  | .hbm, ⟨13, _⟩ => ⟨S_, .i32⟩
  | .hbm, ⟨14, _⟩ => ⟨S2000000, .i32⟩
  | .hbm, ⟨15, _⟩ => ⟨S2000000, .i1⟩
  | .hbm, ⟨16, _⟩ => ⟨S_, .i32⟩
  | .hbm, ⟨17, _⟩ => ⟨S2000000, .i32⟩
  | .hbm, ⟨18, _⟩ => ⟨S2000000, .i32⟩
  | .hbm, ⟨19, _⟩ => ⟨S2000000, .i32⟩
  | .hbm, ⟨20, _⟩ => ⟨S2000000x1, .i32⟩
  | .hbm, ⟨21, _⟩ => ⟨S1, .i32⟩
  | .hbm, ⟨22, _⟩ => ⟨S_, .i32⟩
  | .hbm, ⟨23, _⟩ => ⟨S2000000x1, .i32⟩
  | .hbm, ⟨24, _⟩ => ⟨S2000000x1, .i1⟩
  | .hbm, ⟨25, _⟩ => ⟨S1x1, .i32⟩
  | .hbm, ⟨26, _⟩ => ⟨S2000000x1, .i32⟩
  | .hbm, ⟨27, _⟩ => ⟨S2000000x1, .i1⟩
  | .hbm, ⟨28, _⟩ => ⟨S2000000x1, .i1⟩
  | .hbm, ⟨29, _⟩ => ⟨S_, .i1⟩
  | .hbm, ⟨30, _⟩ => ⟨S2000000, .i1⟩
  | .hbm, ⟨31, _⟩ => ⟨S2000000x60, .f32⟩
  | .hbm, ⟨32, _⟩ => ⟨S2000000x60, .i1⟩
  | .hbm, ⟨33, _⟩ => ⟨S_, .f32⟩
  | .hbm, ⟨34, _⟩ => ⟨S2000000x60, .f32⟩
  | .hbm, ⟨35, _⟩ => ⟨S2000000x60, .f32⟩
  | .hbm, ⟨36, _⟩ => ⟨S1x60, .f32⟩
  | .hbm, ⟨37, _⟩ => ⟨S2000000x30, .f32⟩
  | .hbm, ⟨38, _⟩ => ⟨S_, .f32⟩
  | .hbm, ⟨39, _⟩ => ⟨S100000x30, .f32⟩
  | .hbm, ⟨40, _⟩ => ⟨S2000000x1, .i32⟩
  | .hbm, ⟨41, _⟩ => ⟨S100000x30, .f32⟩
  | .hbm, ⟨42, _⟩ => ⟨S100000x30, .f32⟩
  | .hbm, ⟨43, _⟩ => ⟨S100000x30, .f32⟩
  | .local _ .vmem, ⟨0, _⟩ => ⟨S2000x30, .f32⟩
  | .local _ .vmem, ⟨1, _⟩ => ⟨S2000x30, .f32⟩
  | .local _ .vmem, ⟨2, _⟩ => ⟨S30x60, .f32⟩
  | .local _ .vmem, ⟨3, _⟩ => ⟨S1x60, .f32⟩
  | .local _ .vmem, ⟨4, _⟩ => ⟨S1x60, .f32⟩
  | .local _ .vmem, ⟨5, _⟩ => ⟨S60x30, .f32⟩
  | .local _ .vmem, ⟨6, _⟩ => ⟨S2000x60, .f32⟩
  | .local _ .vmem, ⟨7, _⟩ => ⟨S2000x60, .f32⟩
  | .local _ .vmem, ⟨8, _⟩ => ⟨S2000x30, .f32⟩
  | .local _ .vmem, ⟨9, _⟩ => ⟨S2000x30, .f32⟩
  | .local _ .vmem, ⟨10, _⟩ => ⟨S5000x100, .f32⟩
  | .local _ .vmem, ⟨11, _⟩ => ⟨S5000x100, .f32⟩
  | .local _ .vmem, ⟨12, _⟩ => ⟨S5000x60, .f32⟩
  | .local _ .vmem, ⟨13, _⟩ => ⟨S5000x60, .f32⟩
  | .local _ .vmem, ⟨14, _⟩ => ⟨S100x60, .f32⟩
  | .local _ .vmem, ⟨15, _⟩ => ⟨S1x60, .f32⟩
  | .local _ .vmem, ⟨16, _⟩ => ⟨S60x30, .f32⟩
  | .local _ .vmem, ⟨17, _⟩ => ⟨S5000x30, .f32⟩
  | .local _ .vmem, ⟨18, _⟩ => ⟨S5000x30, .f32⟩
  | _, _ => ⟨S100000x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_cst : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S30x60 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x60 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x60 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S60x30 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x60 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x30 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x60 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S100x60 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x60 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S60x30 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x30 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S60_S1x60 : S60.ShapeCasts S1x60
  inb_S2000x30_S2000x30_0_0 : ∀ a, (![0, 0] : Fin 2 → Nat) a + S2000x30.size a ≤ S2000x30.size a
  h_S2000x30 : 0 < S2000x30.numel
  bitsLt_bf16_f32 : FTy.bits .bf16 < FTy.bits .f32
  inb_S30x60_S30x60_0_0 : ∀ a, (![0, 0] : Fin 2 → Nat) a + S30x60.size a ≤ S30x60.size a
  h_S30x60 : 0 < S30x60.numel
  inb_S1x60_S1x60_0_0 : ∀ a, (![0, 0] : Fin 2 → Nat) a + S1x60.size a ≤ S1x60.size a
  h_S1x60 : 0 < S1x60.numel
  shapeCasts_S1x60_S1x60 : S1x60.ShapeCasts S1x60
  broadcasts_S1x60_S2000x60 : S1x60.Broadcasts S2000x60
  inb_S2000x60_S2000x60_0_0 : ∀ a, (![0, 0] : Fin 2 → Nat) a + S2000x60.size a ≤ S2000x60.size a
  h_S2000x60 : 0 < S2000x60.numel
  inb_S60x30_S60x30_0_0 : ∀ a, (![0, 0] : Fin 2 → Nat) a + S60x30.size a ≤ S60x30.size a
  h_S60x30 : 0 < S60x30.numel
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  reducesTo_S2000000x1_S2000000_d1 : S2000000x1.ReducesTo [1] S2000000
  h_S_ : 0 < S_.numel
  bcast_S2000000_S2000000x60_0 : S2000000.BroadcastsInDim S2000000x60 (![0] : Fin 1 → Fin S2000000x60.rank)
  bcast_S_S2000000x60 : S_.BroadcastsInDim S2000000x60 (![] : Fin 0 → Fin S2000000x60.rank)
  inb_S5000x100_S5000x100_0_0 : ∀ a, (![0, 0] : Fin 2 → Nat) a + S5000x100.size a ≤ S5000x100.size a
  h_S5000x100 : 0 < S5000x100.numel
  inb_S100x60_S100x60_0_0 : ∀ a, (![0, 0] : Fin 2 → Nat) a + S100x60.size a ≤ S100x60.size a
  h_S100x60 : 0 < S100x60.numel
  broadcasts_S1x60_S5000x60 : S1x60.Broadcasts S5000x60
  inb_S5000x60_S5000x60_0_0 : ∀ a, (![0, 0] : Fin 2 → Nat) a + S5000x60.size a ≤ S5000x60.size a
  h_S5000x60 : 0 < S5000x60.numel
  shapeCasts_S5000x60_S5000x60 : S5000x60.ShapeCasts S5000x60
  inb_S5000x30_S5000x30_0_0 : ∀ a, (![0, 0] : Fin 2 → Nat) a + S5000x30.size a ≤ S5000x30.size a
  h_S5000x30 : 0 < S5000x30.numel
  bcast_S_S100000x30 : S_.BroadcastsInDim S100000x30 (![] : Fin 0 → Fin S100000x30.rank)
  dot_S2000x30_S30x60_S2000x60_1_0_0_1_n_n_wf : DotDims.WF S2000x30 S30x60 S2000x60 [1] [0] [0] [1] [] []
  dot_S2000x60_S60x30_S2000x30_1_0_0_1_n_n_wf : DotDims.WF S2000x60 S60x30 S2000x30 [1] [0] [0] [1] [] []
  gather_S100000x60_S2000000x1_S2000000x60_1_0_n_n_0_1_160_wf : GatherDims.WF S100000x60 S2000000x1 S2000000x60 [1] [0] [] [0] [] 1 ![1, 60]
  dot_S5000x100_S100x60_S5000x60_1_0_0_1_n_n_wf : DotDims.WF S5000x100 S100x60 S5000x60 [1] [0] [0] [1] [] []
  dot_S5000x60_S60x30_S5000x30_1_0_0_1_n_n_wf : DotDims.WF S5000x60 S60x30 S5000x30 [1] [0] [0] [1] [] []
  scatter_S100000x30_S2000000x1_S2000000x30_1_0_0_1_wf : ScatterDims.WF S100000x30 S2000000x1 S2000000x30 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x30.size a ≤ S100000x30.size a
  hwx0_0 : ∀ i : grid0.Coords, EltTy.bits .f32 = 32 ∨ (Rect.block (s := S100000x30) S2000x30.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S30x60.size a ≤ S30x60.size a
  hwx0_1 : ∀ i : grid0.Coords, EltTy.bits .f32 = 32 ∨ (Rect.block (s := S30x60) S30x60.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x60.size a ≤ S1x60.size a
  hwx0_2 : ∀ i : grid0.Coords, EltTy.bits .f32 = 32 ∨ (Rect.block (s := S1x60) S1x60.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x60.size a ≤ S1x60.size a
  hwx0_3 : ∀ i : grid0.Coords, EltTy.bits .f32 = 32 ∨ (Rect.block (s := S1x60) S1x60.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S60x30.size a ≤ S60x30.size a
  hwx0_4 : ∀ i : grid0.Coords, EltTy.bits .f32 = 32 ∨ (Rect.block (s := S60x30) S60x30.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x60.size a ≤ S100000x60.size a
  hwx0_5 : ∀ i : grid0.Coords, EltTy.bits .f32 = 32 ∨ (Rect.block (s := S100000x60) S2000x60.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x30.size a ≤ S100000x30.size a
  hwx0_6 : ∀ i : grid0.Coords, EltTy.bits .f32 = 32 ∨ (Rect.block (s := S100000x30) S2000x30.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x100.size a ≤ S2000000x100.size a
  hwx1_0 : ∀ i : grid1.Coords, EltTy.bits .f32 = 32 ∨ (Rect.block (s := S2000000x100) S5000x100.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x60.size a ≤ S2000000x60.size a
  hwx1_1 : ∀ i : grid1.Coords, EltTy.bits .f32 = 32 ∨ (Rect.block (s := S2000000x60) S5000x60.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S100x60.size a ≤ S100x60.size a
  hwx1_2 : ∀ i : grid1.Coords, EltTy.bits .f32 = 32 ∨ (Rect.block (s := S100x60) S100x60.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x60.size a ≤ S1x60.size a
  hwx1_3 : ∀ i : grid1.Coords, EltTy.bits .f32 = 32 ∨ (Rect.block (s := S1x60) S1x60.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S60x30.size a ≤ S60x30.size a
  hwx1_4 : ∀ i : grid1.Coords, EltTy.bits .f32 = 32 ∨ (Rect.block (s := S60x30) S60x30.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x30.size a ≤ S2000000x30.size a
  hwx1_5 : ∀ i : grid1.Coords, EltTy.bits .f32 = 32 ∨ (Rect.block (s := S2000000x30) S5000x30.size (cc1_transform_5 i) (hinb1_5 i)).WholeWords (EltTy.packing .f32)

variable [Facts₀]

def dot_S2000x30_S30x60_S2000x60_1_0_0_1_n_n : DotDims S2000x30 S30x60 S2000x60 where
  lhsContracting := [1]
  rhsContracting := [0]
  lhsNonContracting := [0]
  rhsNonContracting := [1]
  lhsBatch := []
  rhsBatch := []
  wf := dot_S2000x30_S30x60_S2000x60_1_0_0_1_n_n_wf
def dot_S2000x60_S60x30_S2000x30_1_0_0_1_n_n : DotDims S2000x60 S60x30 S2000x30 where
  lhsContracting := [1]
  rhsContracting := [0]
  lhsNonContracting := [0]
  rhsNonContracting := [1]
  lhsBatch := []
  rhsBatch := []
  wf := dot_S2000x60_S60x30_S2000x30_1_0_0_1_n_n_wf
def gather_S100000x60_S2000000x1_S2000000x60_1_0_n_n_0_1_160 : GatherDims S100000x60 S2000000x1 S2000000x60 where
  offsetDims := [1]
  collapsedSliceDims := [0]
  operandBatchingDims := []
  startIndicesBatchingDims := []
  startIndexMap := [0]
  indexVectorDim := 1
  sliceSizes := ![1, 60]
  wf := gather_S100000x60_S2000000x1_S2000000x60_1_0_n_n_0_1_160_wf
def dot_S5000x100_S100x60_S5000x60_1_0_0_1_n_n : DotDims S5000x100 S100x60 S5000x60 where
  lhsContracting := [1]
  rhsContracting := [0]
  lhsNonContracting := [0]
  rhsNonContracting := [1]
  lhsBatch := []
  rhsBatch := []
  wf := dot_S5000x100_S100x60_S5000x60_1_0_0_1_n_n_wf
def dot_S5000x60_S60x30_S5000x30_1_0_0_1_n_n : DotDims S5000x60 S60x30 S5000x30 where
  lhsContracting := [1]
  rhsContracting := [0]
  lhsNonContracting := [0]
  rhsNonContracting := [1]
  lhsBatch := []
  rhsBatch := []
  wf := dot_S5000x60_S60x30_S5000x30_1_0_0_1_n_n_wf
def scatter_S100000x30_S2000000x1_S2000000x30_1_0_0_1 : ScatterDims S100000x30 S2000000x1 S2000000x30 where
  updateWindowDims := [1]
  insertedWindowDims := [0]
  scatterDimsToOperandDims := [0]
  indexVectorDim := 1
  wf := scatter_S100000x30_S2000000x1_S2000000x30_1_0_0_1_wf

abbrev win0_0 : Pipeline.Window sig grid0 :=
  Pipeline.Window.ofSpec (Memref.whole main_arg0) S2000x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S30x60.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x60.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x60.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S60x30.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S2000x60.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S2000x30.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S5000x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S5000x60.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S100x60.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x60.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S60x30.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S5000x30.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x30 : Shape := ⟨2, ![100000, 30]⟩
abbrev S2000000x100 : Shape := ⟨2, ![2000000, 100]⟩
abbrev S2000000 : Shape := ⟨1, ![2000000]⟩
abbrev S30x60 : Shape := ⟨2, ![30, 60]⟩
abbrev S100x60 : Shape := ⟨2, ![100, 60]⟩
abbrev S60x30 : Shape := ⟨2, ![60, 30]⟩
abbrev S60 : Shape := ⟨1, ![60]⟩
abbrev S2000000x60 : Shape := ⟨2, ![2000000, 60]⟩
abbrev S1x60 : Shape := ⟨2, ![1, 60]⟩
abbrev S100000x60 : Shape := ⟨2, ![100000, 60]⟩
abbrev S_ : Shape := ⟨0, ![]⟩
abbrev S2000000x1 : Shape := ⟨2, ![2000000, 1]⟩
abbrev S2000000x30 : Shape := ⟨2, ![2000000, 30]⟩

abbrev nBuf : Space → Nat
  | .hbm => 40
  | .vmem => 0
  | .smem => 0
  | _ => 0

abbrev bufTy : (tb : Table) → Fin (tcTables nBuf tb) → BufTy
  | .hbm, ⟨0, _⟩ => ⟨S100000x30, .f32⟩
  | .hbm, ⟨1, _⟩ => ⟨S2000000x100, .f32⟩
  | .hbm, ⟨2, _⟩ => ⟨S2000000, .i32⟩
  | .hbm, ⟨3, _⟩ => ⟨S2000000, .i32⟩
  | .hbm, ⟨4, _⟩ => ⟨S30x60, .f32⟩
  | .hbm, ⟨5, _⟩ => ⟨S100x60, .f32⟩
  | .hbm, ⟨6, _⟩ => ⟨S60x30, .f32⟩
  | .hbm, ⟨7, _⟩ => ⟨S60, .f32⟩
  | .hbm, ⟨8, _⟩ => ⟨S60, .f32⟩
  | .hbm, ⟨9, _⟩ => ⟨S2000000x60, .f32⟩
  | .hbm, ⟨10, _⟩ => ⟨S1x60, .f32⟩
  | .hbm, ⟨11, _⟩ => ⟨S2000000x60, .f32⟩
  | .hbm, ⟨12, _⟩ => ⟨S2000000x60, .f32⟩
  | .hbm, ⟨13, _⟩ => ⟨S100000x60, .f32⟩
  | .hbm, ⟨14, _⟩ => ⟨S1x60, .f32⟩
  | .hbm, ⟨15, _⟩ => ⟨S100000x60, .f32⟩
  | .hbm, ⟨16, _⟩ => ⟨S100000x60, .f32⟩
  | .hbm, ⟨17, _⟩ => ⟨S_, .i32⟩
  | .hbm, ⟨18, _⟩ => ⟨S2000000, .i32⟩
  | .hbm, ⟨19, _⟩ => ⟨S2000000, .i1⟩
  | .hbm, ⟨20, _⟩ => ⟨S_, .i32⟩
  | .hbm, ⟨21, _⟩ => ⟨S2000000, .i32⟩
  | .hbm, ⟨22, _⟩ => ⟨S2000000, .i32⟩
  | .hbm, ⟨23, _⟩ => ⟨S2000000, .i32⟩
  | .hbm, ⟨24, _⟩ => ⟨S2000000x1, .i32⟩
  | .hbm, ⟨25, _⟩ => ⟨S2000000x60, .f32⟩
  | .hbm, ⟨26, _⟩ => ⟨S2000000x60, .f32⟩
  | .hbm, ⟨27, _⟩ => ⟨S2000000x30, .f32⟩
  | .hbm, ⟨28, _⟩ => ⟨S2000000x30, .f32⟩
  | .hbm, ⟨29, _⟩ => ⟨S1x60, .f32⟩
  | .hbm, ⟨30, _⟩ => ⟨S100000x60, .f32⟩
  | .hbm, ⟨31, _⟩ => ⟨S100000x60, .f32⟩
  | .hbm, ⟨32, _⟩ => ⟨S100000x30, .f32⟩
  | .hbm, ⟨33, _⟩ => ⟨S100000x30, .f32⟩
  | .hbm, ⟨34, _⟩ => ⟨S_, .f32⟩
  | .hbm, ⟨35, _⟩ => ⟨S100000x30, .f32⟩
  | .hbm, ⟨36, _⟩ => ⟨S2000000x1, .i32⟩
  | .hbm, ⟨37, _⟩ => ⟨S100000x30, .f32⟩
  | .hbm, ⟨38, _⟩ => ⟨S100000x30, .f32⟩
  | .hbm, ⟨39, _⟩ => ⟨S100000x30, .f32⟩
  | _, _ => ⟨S100000x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  bcast_S60_S1x60_1 : S60.BroadcastsInDim S1x60 (![1] : Fin 1 → Fin S1x60.rank)
  bcast_S1x60_S2000000x60_0_1 : S1x60.BroadcastsInDim S2000000x60 (![0, 1] : Fin 2 → Fin S2000000x60.rank)
  bcast_S1x60_S100000x60_0_1 : S1x60.BroadcastsInDim S100000x60 (![0, 1] : Fin 2 → Fin S100000x60.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S100000x30 : S_.BroadcastsInDim S100000x30 (![] : Fin 0 → Fin S100000x30.rank)
  dot_S2000000x100_S100x60_S2000000x60_1_0_0_1_n_n_wf : DotDims.WF S2000000x100 S100x60 S2000000x60 [1] [0] [0] [1] [] []
  dot_S100000x30_S30x60_S100000x60_1_0_0_1_n_n_wf : DotDims.WF S100000x30 S30x60 S100000x60 [1] [0] [0] [1] [] []
  gather_S100000x60_S2000000x1_S2000000x60_1_0_n_n_0_1_160_wf : GatherDims.WF S100000x60 S2000000x1 S2000000x60 [1] [0] [] [0] [] 1 ![1, 60]
  dot_S2000000x60_S60x30_S2000000x30_1_0_0_1_n_n_wf : DotDims.WF S2000000x60 S60x30 S2000000x30 [1] [0] [0] [1] [] []
  dot_S100000x60_S60x30_S100000x30_1_0_0_1_n_n_wf : DotDims.WF S100000x60 S60x30 S100000x30 [1] [0] [0] [1] [] []
  scatter_S100000x30_S2000000x1_S2000000x30_1_0_0_1_wf : ScatterDims.WF S100000x30 S2000000x1 S2000000x30 [1] [0] [0] 1

variable [Facts₀]

def dot_S2000000x100_S100x60_S2000000x60_1_0_0_1_n_n : DotDims S2000000x100 S100x60 S2000000x60 where
  lhsContracting := [1]
  rhsContracting := [0]
  lhsNonContracting := [0]
  rhsNonContracting := [1]
  lhsBatch := []
  rhsBatch := []
  wf := dot_S2000000x100_S100x60_S2000000x60_1_0_0_1_n_n_wf
def dot_S100000x30_S30x60_S100000x60_1_0_0_1_n_n : DotDims S100000x30 S30x60 S100000x60 where
  lhsContracting := [1]
  rhsContracting := [0]
  lhsNonContracting := [0]
  rhsNonContracting := [1]
  lhsBatch := []
  rhsBatch := []
  wf := dot_S100000x30_S30x60_S100000x60_1_0_0_1_n_n_wf
def gather_S100000x60_S2000000x1_S2000000x60_1_0_n_n_0_1_160 : GatherDims S100000x60 S2000000x1 S2000000x60 where
  offsetDims := [1]
  collapsedSliceDims := [0]
  operandBatchingDims := []
  startIndicesBatchingDims := []
  startIndexMap := [0]
  indexVectorDim := 1
  sliceSizes := ![1, 60]
  wf := gather_S100000x60_S2000000x1_S2000000x60_1_0_n_n_0_1_160_wf
def dot_S2000000x60_S60x30_S2000000x30_1_0_0_1_n_n : DotDims S2000000x60 S60x30 S2000000x30 where
  lhsContracting := [1]
  rhsContracting := [0]
  lhsNonContracting := [0]
  rhsNonContracting := [1]
  lhsBatch := []
  rhsBatch := []
  wf := dot_S2000000x60_S60x30_S2000000x30_1_0_0_1_n_n_wf
def dot_S100000x60_S60x30_S100000x30_1_0_0_1_n_n : DotDims S100000x60 S60x30 S100000x30 where
  lhsContracting := [1]
  rhsContracting := [0]
  lhsNonContracting := [0]
  rhsNonContracting := [1]
  lhsBatch := []
  rhsBatch := []
  wf := dot_S100000x60_S60x30_S100000x30_1_0_0_1_n_n_wf
def scatter_S100000x30_S2000000x1_S2000000x30_1_0_0_1 : ScatterDims S100000x30 S2000000x1 S2000000x30 where
  updateWindowDims := [1]
  insertedWindowDims := [0]
  scatterDimsToOperandDims := [0]
  indexVectorDim := 1
  wf := scatter_S100000x30_S2000000x1_S2000000x30_1_0_0_1_wf

class Facts : Prop extends Facts₀ where

variable [Facts]
-- ==== Proof.Take.lean ====
import proofs.«426173_j76063870812667_1_alg».proof.KernelIdeal
import proofs.«426173_j76063870812667_1_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.KernelIdeal.Take

open Cert.KernelIdeal Cert.KernelIdeal.Facts₀ Cert.KernelIdeal.Facts
open Idealize.ShloMosaic Idealize.ShloMosaic.ValueIdx

variable {F : FTy → Type} [FloatOps F] [Cert.KernelIdeal.Facts]

/-- The start indices as a column, a negative index counted from the end of the table. -/
def wrapped (j : IVec S2000000 32) : IVec S2000000x1 32 :=
  broadcastInDim S2000000x1 ![0] bcast_S2000000_S2000000x1_0
    (select (cmpi .slt j (broadcastInDim S2000000 ![] bcast_S_S2000000 (constantI S_ 32 0#32)))
      (addi j (broadcastInDim S2000000 ![] bcast_S_S2000000 (constantI S_ 32 100000#32))) j)

/-- The row gather that fills a row whose wrapped index is outside 0..99999 with a fixed word. -/
def filled (tbl : FVec F S100000x60 .f32) (j : IVec S2000000 32) : FVec F S2000000x60 .f32 :=
  select
    (broadcastInDim S2000000x60 ![0] bcast_S2000000_S2000000x60_0
      (Host.reduce IntOp.andi
        (andi (cmpi .sge (wrapped j) (broadcastInDim S2000000x1 ![] bcast_S_S2000000x1 (constantI S_ 32 0#32)))
          (cmpi .sle (wrapped j)
            (broadcastInDim S2000000x1 ![0, 1] bcast_S1x1_S2000000x1_0_1
              (broadcastInDim S1x1 ![1] bcast_S1_S1x1_1 (constantI S1 32 99999#32)))))
        (constantI S_ 1 1#1) reducesTo_S2000000x1_S2000000_d1 h_S_))
    (Host.gather gather_S100000x60_S2000000x1_S2000000x60_1_0_n_n_0_1_160 tbl (wrapped j))
    (broadcastInDim S2000000x60 ![] bcast_S_S2000000x60 (constant S_ .f32 0x7FC00000#32))

/-- A left fold by `and` from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, hf => by
    have h11 : IntOp.andi (1#1 : BitVec 1) 1#1 = 1#1 := by decide
    rw [List.foldl_cons, hf a (List.mem_cons_self ..), h11]
    exact foldl_andi_ones f l (fun n hn => hf n (List.mem_cons_of_mem _ hn))

/-- A reduction by `and` from the constant 1 of an array whose every element is 1 is 1 at every result index. -/
theorem reduce_andi_ones {s t u : Shape} {axes : List (Fin s.rank)} (x : s.Idx → BitVec 1) (h : s.ReducesTo axes t)
    (hu : 0 < u.numel) (hx : ∀ i, x i = 1#1) (j : t.Idx) :
    Host.reduce IntOp.andi x (constantI u 1 1#1) h hu j = 1#1 := by
  rw [Host.reduce_eq_foldl]
  exact foldl_andi_ones x _ (fun n _ => hx n)

/-- A broadcast of an array whose every element is 1 is 1 at every index: it reads the operand somewhere. -/
theorem bcast_all_one {s t : Shape} (dims : Fin s.rank → Fin t.rank) (h : s.BroadcastsInDim t dims) (x : IVec s 1)
    (hx : ∀ k, x k = 1#1) (i : t.Idx) : broadcastInDim t dims h x i = 1#1 := hx _

/-- A select whose condition is 1 everywhere is its first branch. -/
theorem select_of_all_one {s : Shape} {α : Type} (c : IVec s 1) (a b : s.Idx → α) (hc : ∀ i, c i = 1#1) :
    select c a b = a := by
  funext i
  rw [select_apply, hc i, select_one]

/-- One word: an index x in -100000..99999, wrapped (x + 100000 when x is negative, else x), lies in 0..99999;
    the sum does not overflow, so both signed tests on the wrapped word hold. -/
theorem wrap_in_range (x : BitVec 32) (h1 : -100000 ≤ x.toInt) (h2 : x.toInt < 100000) :
    IntOp.andi (IntOp.cmpi .sge (Scalar.select (IntOp.cmpi .slt x 0#32) (IntOp.addi x 100000#32) x) 0#32)
      (IntOp.cmpi .sle (Scalar.select (IntOp.cmpi .slt x 0#32) (IntOp.addi x 100000#32) x) 99999#32) = 1#1 := by
  have z : (0#32 : BitVec 32).toInt = 0 := by decide
  have c : (100000#32 : BitVec 32).toInt = 100000 := by decide
  have d : (99999#32 : BitVec 32).toInt = 99999 := by decide
  rw [IntOp.andi_eq_one, IntOp.cmpi_sge, IntOp.cmpi_sle, z, d]
  by_cases hx : x.toInt < 0
  · have hc : IntOp.cmpi .slt x 0#32 = 1#1 := IntOp.cmpi_slt.2 (by rw [z]; exact hx)
    rw [hc, select_one]
    have hs : (IntOp.addi x 100000#32).toInt = x.toInt + 100000 := by
      rw [IntOp.addi, BitVec.toInt_add, c]
      exact Int.bmod_eq_of_le (by omega) (by omega)
    omega
  · have hc : ¬ IntOp.cmpi .slt x 0#32 = 1#1 := fun h => hx (by have := IntOp.cmpi_slt.1 h; rwa [z] at this)
    rw [eq_zero_of_ne_one hc, select_zero]
    omega

/-- The wrapped column at an index is the wrap of one entry of the index vector. -/
theorem wrapped_apply (j : IVec S2000000 32) (i : S2000000x1.Idx) :
    ∃ k : S2000000.Idx, wrapped j i = Scalar.select (IntOp.cmpi .slt (j k) 0#32) (IntOp.addi (j k) 100000#32) (j k) :=
  ⟨_, rfl⟩

/-- Where every index lies in -100000..99999 no row is filled: the result is the plain row gather. -/
theorem filled_eq_gather (tbl : FVec F S100000x60 .f32) (j : IVec S2000000 32)
    (hj : ∀ e : S2000000.Idx, -100000 ≤ (j e).toInt ∧ (j e).toInt < 100000) :
    filled tbl j = Host.gather gather_S100000x60_S2000000x1_S2000000x60_1_0_n_n_0_1_160 tbl (wrapped j) := by
  unfold filled
  refine select_of_all_one _ _ _ (fun i => bcast_all_one _ _ _ (fun k => reduce_andi_ones _ _ _ (fun m => ?_) k) i)
  obtain ⟨k', hk'⟩ := wrapped_apply j m
  show IntOp.andi (IntOp.cmpi .sge (wrapped j m) 0#32) (IntOp.cmpi .sle (wrapped j m) 99999#32) = 1#1
  rw [hk']
  exact wrap_in_range (j k') (hj k').1 (hj k').2

/-- The precondition's last conjunct, read: every pair's source-atom index lies in -100000..99999. -/
theorem index_range_of_pre [Cert.Pre_finite_inputs.Facts]
    (a0 : FVec Ideal Cert.Pre_finite_inputs.S100000x30 .f32) (a1 : FVec Ideal Cert.Pre_finite_inputs.S2000000x100 .f32)
    (a2 a3 : IVec Cert.Pre_finite_inputs.S2000000 32) (a4 : FVec Ideal Cert.Pre_finite_inputs.S30x60 .f32)
    (a5 : FVec Ideal Cert.Pre_finite_inputs.S100x60 .f32) (a6 : FVec Ideal Cert.Pre_finite_inputs.S60x30 .f32)
    (a7 a8 : FVec Ideal Cert.Pre_finite_inputs.S60 .f32)
    (h : Cert.Pre_finite_inputs.fn (F := Ideal) a0 a1 a2 a3 a4 a5 a6 a7 a8 = fun _ => 1#1) :
    ∀ e : Cert.Pre_finite_inputs.S2000000.Idx, -100000 ≤ (a3 e).toInt ∧ (a3 e).toInt < 100000 := by
  intro e
  have h0 := congrFun h ValueIdx.ix0
  dsimp only [Cert.Pre_finite_inputs.fn, Cert.Pre_finite_inputs.fn_part1, Cert.Pre_finite_inputs.fn_part2] at h0
  have h1 := (IntOp.andi_eq_one.1 h0).2
  haveI : Subsingleton Cert.Pre_finite_inputs.S_.Idx := ⟨fun a b => funext fun d => d.elim0⟩
  have h2 := Host.reduce_andi_all _ _ _ _ _ h1 e
  obtain ⟨hge, hlt⟩ := IntOp.andi_eq_one.1 h2
  have hge' : (4294867296#32 : BitVec 32).toInt ≤ (a3 e).toInt := IntOp.cmpi_sge.1 hge
  have hlt' : (a3 e).toInt < (100000#32 : BitVec 32).toInt := IntOp.cmpi_slt.1 hlt
  have c1 : (4294867296#32 : BitVec 32).toInt = -100000 := by decide
  have c2 : (100000#32 : BitVec 32).toInt = 100000 := by decide
  omega

end Cert.KernelIdeal.Take

end
-- ==== Proof.HostChain.lean ====
import proofs.«426173_j76063870812667_1_alg».proof.Proof.Gen.KernelIdeal.Frame
import proofs.«426173_j76063870812667_1_alg».proof.Proof.Take
import Idealize.ShloMosaic.Lib.StableHlo.Run

set_option maxRecDepth 16384

noncomputable section

namespace Cert.KernelIdeal.HostChain

open Cert.KernelIdeal Cert.KernelIdeal.Gen
open Idealize.ShloMosaic Idealize.ShloMosaic.TcCoe Idealize.ShloMosaic.Tactic Idealize.ShloMosaic.StableHlo
open Idealize.SL.Sem
open Idealize.ShloMosaic.Pipeline (Dat Cfg Window)

variable {F : FTy → Type} [FloatOps F]
variable (m : (ℓ : Loc nD τ sig) → Buf (Elt F) ℓ) (ρ : Dev nD → PrngReg)

/-- A buffer no operation of a stretch writes is after the stretch what it was before. -/
local macro "unwritten " ops:ident : tactic => `(tactic|
  (refine StableHlo.after_of_forall_not_mem _ _ (List.forall_iff_forall_mem.mp ?_)
   simp only [$ops:ident, List.flatten_cons, List.flatten_nil, List.append_nil, List.cons_append,
     List.nil_append, List.Forall, StableHlo.nullary_writes, StableHlo.unary_writes, StableHlo.binary_writes,
     StableHlo.ternary_writes, StableHlo.quaternary_writes, StableHlo.reshape_writes, StableHlo.binaryIndexed_writes,
     Finset.mem_singleton]
   repeat' apply And.intro
   all_goals exact StableHlo.devRef_ne_of_ne (by decide)))

/-! ## The argument arrays at the boundaries

No stretch and no pipeline writes an argument, so at every boundary an argument's buffer holds what it held at launch. -/

theorem W1_main_arg0 (c : Dev nD) : W1 m ρ c (Proc.devRef .tc main_arg0) = m ((c : Thread nD τ).loc main_arg0) := by
  show StableHlo.after hostOps0 (W0 m ρ c) (Proc.devRef .tc main_arg0) = W0 m ρ c (Proc.devRef .tc main_arg0)
  unwritten hostOps0
theorem W1_main_arg3 (c : Dev nD) : W1 m ρ c (Proc.devRef .tc main_arg3) = m ((c : Thread nD τ).loc main_arg3) := by
  show StableHlo.after hostOps0 (W0 m ρ c) (Proc.devRef .tc main_arg3) = W0 m ρ c (Proc.devRef .tc main_arg3)
  unwritten hostOps0
theorem W1_main_arg4 (c : Dev nD) : W1 m ρ c (Proc.devRef .tc main_arg4) = m ((c : Thread nD τ).loc main_arg4) := by
  show StableHlo.after hostOps0 (W0 m ρ c) (Proc.devRef .tc main_arg4) = W0 m ρ c (Proc.devRef .tc main_arg4)
  unwritten hostOps0
theorem W1_main_arg6 (c : Dev nD) : W1 m ρ c (Proc.devRef .tc main_arg6) = m ((c : Thread nD τ).loc main_arg6) := by
  show StableHlo.after hostOps0 (W0 m ρ c) (Proc.devRef .tc main_arg6) = W0 m ρ c (Proc.devRef .tc main_arg6)
  unwritten hostOps0
theorem W1_main_arg7 (c : Dev nD) : W1 m ρ c (Proc.devRef .tc main_arg7) = m ((c : Thread nD τ).loc main_arg7) := by
  show StableHlo.after hostOps0 (W0 m ρ c) (Proc.devRef .tc main_arg7) = W0 m ρ c (Proc.devRef .tc main_arg7)
  unwritten hostOps0
theorem W1_main_arg8 (c : Dev nD) : W1 m ρ c (Proc.devRef .tc main_arg8) = m ((c : Thread nD τ).loc main_arg8) := by
  show StableHlo.after hostOps0 (W0 m ρ c) (Proc.devRef .tc main_arg8) = W0 m ρ c (Proc.devRef .tc main_arg8)
  unwritten hostOps0
theorem W1_main_arg1 (c : Dev nD) : W1 m ρ c (Proc.devRef .tc main_arg1) = m ((c : Thread nD τ).loc main_arg1) := by
  show StableHlo.after hostOps0 (W0 m ρ c) (Proc.devRef .tc main_arg1) = W0 m ρ c (Proc.devRef .tc main_arg1)
  unwritten hostOps0
theorem W1_main_arg5 (c : Dev nD) : W1 m ρ c (Proc.devRef .tc main_arg5) = m ((c : Thread nD τ).loc main_arg5) := by
  show StableHlo.after hostOps0 (W0 m ρ c) (Proc.devRef .tc main_arg5) = W0 m ρ c (Proc.devRef .tc main_arg5)
  unwritten hostOps0
theorem W1_main_arg2 (c : Dev nD) : W1 m ρ c (Proc.devRef .tc main_arg2) = m ((c : Thread nD τ).loc main_arg2) := by
  show StableHlo.after hostOps0 (W0 m ρ c) (Proc.devRef .tc main_arg2) = W0 m ρ c (Proc.devRef .tc main_arg2)
  unwritten hostOps0
theorem W2_main_arg1 (c : Dev nD) : W2 m ρ c (Proc.devRef .tc main_arg1) = m ((c : Thread nD τ).loc main_arg1) :=
  (W2_of_ne m ρ c main_arg1 (by decide)).trans (W1_main_arg1 m ρ c)
theorem W2_main_arg2 (c : Dev nD) : W2 m ρ c (Proc.devRef .tc main_arg2) = m ((c : Thread nD τ).loc main_arg2) :=
  (W2_of_ne m ρ c main_arg2 (by decide)).trans (W1_main_arg2 m ρ c)
theorem W2_main_arg3 (c : Dev nD) : W2 m ρ c (Proc.devRef .tc main_arg3) = m ((c : Thread nD τ).loc main_arg3) :=
  (W2_of_ne m ρ c main_arg3 (by decide)).trans (W1_main_arg3 m ρ c)
theorem W2_main_arg5 (c : Dev nD) : W2 m ρ c (Proc.devRef .tc main_arg5) = m ((c : Thread nD τ).loc main_arg5) :=
  (W2_of_ne m ρ c main_arg5 (by decide)).trans (W1_main_arg5 m ρ c)
theorem W2_main_arg8 (c : Dev nD) : W2 m ρ c (Proc.devRef .tc main_arg8) = m ((c : Thread nD τ).loc main_arg8) :=
  (W2_of_ne m ρ c main_arg8 (by decide)).trans (W1_main_arg8 m ρ c)
theorem W2_main_arg6 (c : Dev nD) : W2 m ρ c (Proc.devRef .tc main_arg6) = m ((c : Thread nD τ).loc main_arg6) :=
  ((W2_arr m ρ c 4).trans (((dat0 (V1 m ρ) c).arrAt_in 4 rfl _).trans (A_eq0 (V1 m ρ) c 4))).trans (W1_main_arg6 m ρ c)
theorem W3_main_arg1 (c : Dev nD) : W3 m ρ c (Proc.devRef .tc main_arg1) = m ((c : Thread nD τ).loc main_arg1) := by
  refine Eq.trans ?_ (W2_main_arg1 m ρ c)
  show StableHlo.after hostOps1 (W2 m ρ c) (Proc.devRef .tc main_arg1) = W2 m ρ c (Proc.devRef .tc main_arg1)
  unwritten hostOps1
theorem W3_main_arg3 (c : Dev nD) : W3 m ρ c (Proc.devRef .tc main_arg3) = m ((c : Thread nD τ).loc main_arg3) := by
  refine Eq.trans ?_ (W2_main_arg3 m ρ c)
  show StableHlo.after hostOps1 (W2 m ρ c) (Proc.devRef .tc main_arg3) = W2 m ρ c (Proc.devRef .tc main_arg3)
  unwritten hostOps1
theorem W3_main_arg5 (c : Dev nD) : W3 m ρ c (Proc.devRef .tc main_arg5) = m ((c : Thread nD τ).loc main_arg5) := by
  refine Eq.trans ?_ (W2_main_arg5 m ρ c)
  show StableHlo.after hostOps1 (W2 m ρ c) (Proc.devRef .tc main_arg5) = W2 m ρ c (Proc.devRef .tc main_arg5)
  unwritten hostOps1
theorem W3_main_arg6 (c : Dev nD) : W3 m ρ c (Proc.devRef .tc main_arg6) = m ((c : Thread nD τ).loc main_arg6) := by
  refine Eq.trans ?_ (W2_main_arg6 m ρ c)
  show StableHlo.after hostOps1 (W2 m ρ c) (Proc.devRef .tc main_arg6) = W2 m ρ c (Proc.devRef .tc main_arg6)
  unwritten hostOps1
theorem W3_main_arg8 (c : Dev nD) : W3 m ρ c (Proc.devRef .tc main_arg8) = m ((c : Thread nD τ).loc main_arg8) := by
  refine Eq.trans ?_ (W2_main_arg8 m ρ c)
  show StableHlo.after hostOps1 (W2 m ρ c) (Proc.devRef .tc main_arg8) = W2 m ρ c (Proc.devRef .tc main_arg8)
  unwritten hostOps1
theorem W3_main_arg2 (c : Dev nD) : W3 m ρ c (Proc.devRef .tc main_arg2) = m ((c : Thread nD τ).loc main_arg2) := by
  refine Eq.trans ?_ (W2_main_arg2 m ρ c)
  show StableHlo.after hostOps1 (W2 m ρ c) (Proc.devRef .tc main_arg2) = W2 m ρ c (Proc.devRef .tc main_arg2)
  unwritten hostOps1
theorem W4_main_arg1 (c : Dev nD) : W4 m ρ c (Proc.devRef .tc main_arg1) = m ((c : Thread nD τ).loc main_arg1) := by
  refine Eq.trans ?_ (W3_main_arg1 m ρ c)
  show StableHlo.after hostOps1_1 (W3 m ρ c) (Proc.devRef .tc main_arg1) = W3 m ρ c (Proc.devRef .tc main_arg1)
  unwritten hostOps1_1
theorem W4_main_arg5 (c : Dev nD) : W4 m ρ c (Proc.devRef .tc main_arg5) = m ((c : Thread nD τ).loc main_arg5) := by
  refine Eq.trans ?_ (W3_main_arg5 m ρ c)
  show StableHlo.after hostOps1_1 (W3 m ρ c) (Proc.devRef .tc main_arg5) = W3 m ρ c (Proc.devRef .tc main_arg5)
  unwritten hostOps1_1
theorem W4_main_arg6 (c : Dev nD) : W4 m ρ c (Proc.devRef .tc main_arg6) = m ((c : Thread nD τ).loc main_arg6) := by
  refine Eq.trans ?_ (W3_main_arg6 m ρ c)
  show StableHlo.after hostOps1_1 (W3 m ρ c) (Proc.devRef .tc main_arg6) = W3 m ρ c (Proc.devRef .tc main_arg6)
  unwritten hostOps1_1

/-! ## What the first pipeline finds: the features, Wcf, the two biases as one-row matrices, Wfc -/

theorem V1_feat (c : Dev nD) : V1 m ρ c main_arg0 = m ((c : Thread nD τ).loc main_arg0) := W1_main_arg0 m ρ c
theorem V1_wcf (c : Dev nD) : V1 m ρ c main_arg4 = m ((c : Thread nD τ).loc main_arg4) := W1_main_arg4 m ρ c
theorem V1_wfc (c : Dev nD) : V1 m ρ c main_arg6 = m ((c : Thread nD τ).loc main_arg6) := W1_main_arg6 m ρ c
/-- The bias of the hidden map, laid out as one row. -/
theorem V1_bcf (c : Dev nD) : V1 m ρ c main_v0 = shapeCast S1x60 (m ((c : Thread nD τ).loc main_arg7)) shapeCasts_S60_S1x60 := by
  show StableHlo.after hostOps0 (W0 m ρ c) (Proc.devRef .tc main_v0) = _
  after_results; rfl
/-- The distance bias, laid out as one row. -/
theorem V1_bdf (c : Dev nD) : V1 m ρ c main_v1 = shapeCast S1x60 (m ((c : Thread nD τ).loc main_arg8)) shapeCasts_S60_S1x60 := by
  show StableHlo.after hostOps0 (W0 m ρ c) (Proc.devRef .tc main_v1) = _
  after_results; rfl

/-! ## What the second pipeline finds -/

theorem V4_dist (c : Dev nD) : V4 m ρ c main_arg1 = m ((c : Thread nD τ).loc main_arg1) := W4_main_arg1 m ρ c
theorem V4_wdf (c : Dev nD) : V4 m ρ c main_arg5 = m ((c : Thread nD τ).loc main_arg5) := W4_main_arg5 m ρ c
theorem V4_wfc (c : Dev nD) : V4 m ρ c main_arg6 = m ((c : Thread nD τ).loc main_arg6) := W4_main_arg6 m ρ c
/-- The distance bias again, laid out as one row for the second pipeline. -/
theorem V4_bdf (c : Dev nD) : V4 m ρ c main_v4 = shapeCast S1x60 (m ((c : Thread nD τ).loc main_arg8)) shapeCasts_S60_S1x60 := by
  show StableHlo.after hostOps1_1 (W3 m ρ c) (Proc.devRef .tc main_v4) = _
  after_results
  rw [W2_main_arg8 m ρ c]; rfl

/-! ### The row gather, in three steps

The 23 operations of the row gather are taken in three runs — the wrapped index column, the per-row range test, the
gather and the fill — each read over an arbitrary valuation, then composed. -/

/-- The row gather's first operations: the index vector, a negative entry counted from the table's end, laid out as a column. -/
abbrev wrapOps : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S2000000, .i32⟩) (broadcastInDim S2000000 ![] bcast_S_S2000000),
    StableHlo.TRef.binary (.of main_arg3 : StableHlo.TRef sig ⟨S2000000, .i32⟩) (.of main_call0_v0 : StableHlo.TRef sig ⟨S2000000, .i32⟩) (.of main_call0_v1 : StableHlo.TRef sig ⟨S2000000, .i1⟩) (cmpi .slt),
    StableHlo.TRef.nullary (.of main_call0_c_0 : StableHlo.TRef sig ⟨S_, .i32⟩) (constantI S_ 32 100000#32),
    StableHlo.TRef.unary (.of main_call0_c_0 : StableHlo.TRef sig ⟨S_, .i32⟩) (.of main_call0_v2 : StableHlo.TRef sig ⟨S2000000, .i32⟩) (broadcastInDim S2000000 ![] bcast_S_S2000000),
    StableHlo.TRef.binary (.of main_arg3 : StableHlo.TRef sig ⟨S2000000, .i32⟩) (.of main_call0_v2 : StableHlo.TRef sig ⟨S2000000, .i32⟩) (.of main_call0_v3 : StableHlo.TRef sig ⟨S2000000, .i32⟩) addi,
    StableHlo.TRef.ternary (.of main_call0_v1 : StableHlo.TRef sig ⟨S2000000, .i1⟩) (.of main_call0_v3 : StableHlo.TRef sig ⟨S2000000, .i32⟩) (.of main_arg3 : StableHlo.TRef sig ⟨S2000000, .i32⟩) (.of main_call0_v4 : StableHlo.TRef sig ⟨S2000000, .i32⟩) select,
    StableHlo.TRef.unary main_call0_call0.v0 (.of main_call0_v5 : StableHlo.TRef sig ⟨S2000000x1, .i32⟩) (broadcastInDim S2000000x1 ![0] bcast_S2000000_S2000000x1_0) ]
/-- Its next operations: per row, whether the wrapped index lies in 0..99999. -/
abbrev testOps : List (HloOp τ sig (Elt F)) :=
  [ StableHlo.TRef.nullary (.of main_call0_c_1 : StableHlo.TRef sig ⟨S1, .i32⟩) (constantI S1 32 99999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S2000000x1, .i32⟩) (broadcastInDim S2000000x1 ![] bcast_S_S2000000x1),
    StableHlo.TRef.binary (.of main_call0_v5 : StableHlo.TRef sig ⟨S2000000x1, .i32⟩) (.of main_call0_v6 : StableHlo.TRef sig ⟨S2000000x1, .i32⟩) (.of main_call0_v7 : StableHlo.TRef sig ⟨S2000000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S2000000x1, .i32⟩) (broadcastInDim S2000000x1 ![0, 1] bcast_S1x1_S2000000x1_0_1),
    StableHlo.TRef.binary (.of main_call0_v5 : StableHlo.TRef sig ⟨S2000000x1, .i32⟩) (.of main_call0_v9 : StableHlo.TRef sig ⟨S2000000x1, .i32⟩) (.of main_call0_v10 : StableHlo.TRef sig ⟨S2000000x1, .i1⟩) (cmpi .sle),
    StableHlo.TRef.binary (.of main_call0_v7 : StableHlo.TRef sig ⟨S2000000x1, .i1⟩) (.of main_call0_v10 : StableHlo.TRef sig ⟨S2000000x1, .i1⟩) (.of main_call0_v11 : StableHlo.TRef sig ⟨S2000000x1, .i1⟩) andi,
    StableHlo.TRef.nullary (.of main_call0_c_3 : StableHlo.TRef sig ⟨S_, .i1⟩) (constantI S_ 1 1#1),
    StableHlo.TRef.binary (.of main_call0_v11 : StableHlo.TRef sig ⟨S2000000x1, .i1⟩) (.of main_call0_c_3 : StableHlo.TRef sig ⟨S_, .i1⟩) (.of main_call0_v12 : StableHlo.TRef sig ⟨S2000000, .i1⟩) (fun x v => Host.reduce IntOp.andi x v reducesTo_S2000000x1_S2000000_d1 h_S_) ]
/-- Its last operations: the gather itself, and the fixed word selected into the rows whose test failed. -/
abbrev fillOps : List (HloOp τ sig (Elt F)) :=
  [ StableHlo.TRef.binary (.of main_v2_0 : StableHlo.TRef sig ⟨S100000x60, .f32⟩) (.of main_call0_v5 : StableHlo.TRef sig ⟨S2000000x1, .i32⟩) (.of main_call0_v13 : StableHlo.TRef sig ⟨S2000000x60, .f32⟩) (fun x i => Host.gather gather_S100000x60_S2000000x1_S2000000x60_1_0_n_n_0_1_160 x i),
    StableHlo.TRef.unary (.of main_call0_v12 : StableHlo.TRef sig ⟨S2000000, .i1⟩) (.of main_call0_v14 : StableHlo.TRef sig ⟨S2000000x60, .i1⟩) (broadcastInDim S2000000x60 ![0] bcast_S2000000_S2000000x60_0),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S2000000x60, .f32⟩) (broadcastInDim S2000000x60 ![] bcast_S_S2000000x60),
    StableHlo.TRef.ternary (.of main_call0_v14 : StableHlo.TRef sig ⟨S2000000x60, .i1⟩) (.of main_call0_v13 : StableHlo.TRef sig ⟨S2000000x60, .f32⟩) (.of main_call0_v15 : StableHlo.TRef sig ⟨S2000000x60, .f32⟩) (.of main_v3 : StableHlo.TRef sig ⟨S2000000x60, .f32⟩) select ]

set_option maxHeartbeats 2000000 in
/-- After the first run the column buffer holds the wrapped indices. -/
theorem wrap_stretch (W : Valuation τ sig (Elt F)) :
    StableHlo.after wrapOps W (Proc.devRef .tc main_call0_v5) = Take.wrapped (W (Proc.devRef .tc main_arg3)) := by
  after_results_simp
  simp only [TRef.ofBuf, TRef.toBuf, cast_eq]
  rfl
theorem wrap_keeps_table (W : Valuation τ sig (Elt F)) :
    StableHlo.after wrapOps W (Proc.devRef .tc main_v2_0) = W (Proc.devRef .tc main_v2_0) := by
  unwritten wrapOps

set_option maxHeartbeats 2000000 in
/-- After the second run the row-test buffer holds, per row, whether the column's entry lies in 0..99999. -/
theorem test_stretch (W : Valuation τ sig (Elt F)) :
    StableHlo.after testOps W (Proc.devRef .tc main_call0_v12)
      = Host.reduce IntOp.andi
          (andi (cmpi .sge (W (Proc.devRef .tc main_call0_v5)) (broadcastInDim S2000000x1 ![] bcast_S_S2000000x1 (constantI S_ 32 0#32)))
            (cmpi .sle (W (Proc.devRef .tc main_call0_v5))
              (broadcastInDim S2000000x1 ![0, 1] bcast_S1x1_S2000000x1_0_1
                (broadcastInDim S1x1 ![1] bcast_S1_S1x1_1 (constantI S1 32 99999#32)))))
          (constantI S_ 1 1#1) reducesTo_S2000000x1_S2000000_d1 h_S_ := by
  after_results_simp
  simp only [TRef.ofBuf, TRef.toBuf, cast_eq]
theorem test_keeps_column (W : Valuation τ sig (Elt F)) :
    StableHlo.after testOps W (Proc.devRef .tc main_call0_v5) = W (Proc.devRef .tc main_call0_v5) := by
  unwritten testOps
theorem test_keeps_table (W : Valuation τ sig (Elt F)) :
    StableHlo.after testOps W (Proc.devRef .tc main_v2_0) = W (Proc.devRef .tc main_v2_0) := by
  unwritten testOps

set_option maxHeartbeats 2000000 in
/-- After the third run the result buffer holds the table's rows at the column's indices, a row whose test failed
    replaced by the fixed word. -/
theorem fill_stretch (W : Valuation τ sig (Elt F)) :
    StableHlo.after fillOps W (Proc.devRef .tc main_v3)
      = select (broadcastInDim S2000000x60 ![0] bcast_S2000000_S2000000x60_0 (W (Proc.devRef .tc main_call0_v12)))
          (Host.gather gather_S100000x60_S2000000x1_S2000000x60_1_0_n_n_0_1_160 (W (Proc.devRef .tc main_v2_0)) (W (Proc.devRef .tc main_call0_v5)))
          (broadcastInDim S2000000x60 ![] bcast_S_S2000000x60 (constant (F := F) S_ .f32 0x7FC00000#32)) := by
  after_results_simp
  simp only [TRef.ofBuf, TRef.toBuf, cast_eq]

/-- The row gather's operations are the three runs in order. -/
theorem hostOps1_split : (hostOps1 : List (HloOp τ sig (Elt F))) = wrapOps ++ (testOps ++ fillOps) := rfl

/-- The three runs composed: the whole row gather over any valuation. -/
theorem take_stretch (W : Valuation τ sig (Elt F)) :
    StableHlo.after hostOps1 W (Proc.devRef .tc main_v3) = Take.filled (W (Proc.devRef .tc main_v2_0)) (W (Proc.devRef .tc main_arg3)) := by
  rw [hostOps1_split, StableHlo.after_append, StableHlo.after_append, fill_stretch, test_stretch, test_keeps_column, test_keeps_table,
    wrap_stretch, wrap_keeps_table]
  rfl

/-- The gathered hidden rows: the filling row gather of the first pipeline's hidden array at the pairs' source atoms. -/
theorem W3_gathered (c : Dev nD) :
    W3 m ρ c (Proc.devRef .tc main_v3) = Take.filled (W2 m ρ c (Proc.devRef .tc main_v2_0)) (W2 m ρ c (Proc.devRef .tc main_arg3)) :=
  take_stretch (W2 m ρ c)

theorem V4_gathered (c : Dev nD) :
    V4 m ρ c main_v3 = Take.filled ((dat0 (V1 m ρ) c).arrAt 5 cfg0.N) (m ((c : Thread nD τ).loc main_arg3)) := by
  have h : W4 m ρ c (Proc.devRef .tc main_v3) = W3 m ρ c (Proc.devRef .tc main_v3) := by
    show StableHlo.after hostOps1_1 (W3 m ρ c) (Proc.devRef .tc main_v3) = W3 m ρ c (Proc.devRef .tc main_v3)
    unwritten hostOps1_1
  show W4 m ρ c (Proc.devRef .tc main_v3) = _
  rw [h, W3_gathered, W2_arr m ρ c 5, W2_main_arg3]

/-! ## What the last stretch finds, and the result -/

/-- The self terms the first pipeline wrote are untouched until the last stretch. -/
theorem W5_self (c : Dev nD) : W5 m ρ c (Proc.devRef .tc main_v2_1) = (dat0 (V1 m ρ) c).arrAt 6 cfg0.N := by
  refine (W5_of_ne m ρ c main_v2_1 (by decide)).trans ?_
  have h4 : W4 m ρ c (Proc.devRef .tc main_v2_1) = W3 m ρ c (Proc.devRef .tc main_v2_1) := by
    show StableHlo.after hostOps1_1 (W3 m ρ c) (Proc.devRef .tc main_v2_1) = W3 m ρ c (Proc.devRef .tc main_v2_1)
    unwritten hostOps1_1
  have h3 : W3 m ρ c (Proc.devRef .tc main_v2_1) = W2 m ρ c (Proc.devRef .tc main_v2_1) := by
    show StableHlo.after hostOps1 (W2 m ρ c) (Proc.devRef .tc main_v2_1) = W2 m ρ c (Proc.devRef .tc main_v2_1)
    unwritten hostOps1
  rw [h4, h3]; exact W2_arr m ρ c 6

theorem W5_main_arg0 (c : Dev nD) : W5 m ρ c (Proc.devRef .tc main_arg0) = m ((c : Thread nD τ).loc main_arg0) := by
  refine Eq.trans (Eq.symm ?_) (W6_main_arg0 m ρ c)
  show StableHlo.after hostOps2 (W5 m ρ c) (Proc.devRef .tc main_arg0) = W5 m ρ c (Proc.devRef .tc main_arg0)
  unwritten hostOps2
theorem W5_main_arg2 (c : Dev nD) : W5 m ρ c (Proc.devRef .tc main_arg2) = m ((c : Thread nD τ).loc main_arg2) := by
  refine Eq.trans (Eq.symm ?_) (W6_main_arg2 m ρ c)
  show StableHlo.after hostOps2 (W5 m ρ c) (Proc.devRef .tc main_arg2) = W5 m ρ c (Proc.devRef .tc main_arg2)
  unwritten hostOps2

/-- THE RESULT: the scatter-sum of the second pipeline's messages over the pairs' target atoms, minus the first
    pipeline's self terms, plus the features. -/
theorem result_eq (c : Dev nD) :
    W6 m ρ c (Proc.devRef .tc main_v10)
      = addf (subf (Host.scatterAdd scatter_S100000x30_S2000000x1_S2000000x30_1_0_0_1
            (broadcastInDim S100000x30 ![] bcast_S_S100000x30 (constant (F := F) S_ .f32 0x00000000#32))
            (broadcastInDim S2000000x1 ![0] bcast_S2000000_S2000000x1_0 (m ((c : Thread nD τ).loc main_arg2)))
            ((dat1 (V4 m ρ) c).arrAt 5 cfg1.N))
          ((dat0 (V1 m ρ) c).arrAt 6 cfg0.N)) (m ((c : Thread nD τ).loc main_arg0)) := by
  show StableHlo.after hostOps2 (W5 m ρ c) (Proc.devRef .tc main_v10) = _
  after_results
  rw [W5_main_arg2, W5_main_arg0, W5_self, W5_arr m ρ c 5]

end Cert.KernelIdeal.HostChain

end
-- ==== Proof.Spec.lean ====
/-
  The mathematics both programs compute, index by index, on the extended reals.

  An atom's hidden vector is an affine map of its 30 features,
      hidden n h = Σ_k feat[n,k] · Wcf[k,h] + bcf[h];
  its self term is  tanh (Σ_h (bdf[h] · hidden n h) · Wfc[h,f]);
  a pair e with gathered hidden row g[e,·] contributes
      tanh (Σ_h ((Σ_k dist[e,k] · Wdf[k,h] + bdf[h]) · g[e,h]) · Wfc[h,f]).
  The biases are carried as one-row matrices [1,60], the form in which both pipelines receive them.
  No law of the extended reals is needed between the two programs: they apply these formulas in the same
  order, and differ only in tiling (blocks of 2000 atoms, blocks of 5000 pairs) and in number formats that
  are the identity here.
-/
import Idealize.ShloMosaic.PureOps.Ideal
import Idealize.ShloMosaic.Lib.ValueIdx

noncomputable section

namespace Cert.PairConv

open Idealize.ShloMosaic Idealize.ShloMosaic.ValueIdx

/-- Channel `h` of atom `n`'s hidden vector. -/
def hiddenAt (feat : FVec Ideal ⟨2, ![100000, 30]⟩ .f32) (wcf : FVec Ideal ⟨2, ![30, 60]⟩ .f32)
    (bcf : FVec Ideal ⟨2, ![1, 60]⟩ .f32) (n : Fin 100000) (h : Fin 60) : EReal :=
  (∑ k : Fin 30, feat (ix2 n k) * wcf (ix2 k h)) + bcf (ix2 0 h)

/-- Feature `f` of atom `n`'s self term. -/
def selfAt (feat : FVec Ideal ⟨2, ![100000, 30]⟩ .f32) (wcf : FVec Ideal ⟨2, ![30, 60]⟩ .f32)
    (bcf bdf : FVec Ideal ⟨2, ![1, 60]⟩ .f32) (wfc : FVec Ideal ⟨2, ![60, 30]⟩ .f32) (n : Fin 100000) (f : Fin 30) : EReal :=
  Ideal.tanh (∑ h : Fin 60, (bdf (ix2 0 h) * hiddenAt feat wcf bcf n h) * wfc (ix2 h f))

/-- Feature `f` of pair `e`'s message, from the pair's distance row and the hidden row `g[e,·]` gathered for it. -/
def pairAt (dist : FVec Ideal ⟨2, ![2000000, 100]⟩ .f32) (wdf : FVec Ideal ⟨2, ![100, 60]⟩ .f32)
    (bdf : FVec Ideal ⟨2, ![1, 60]⟩ .f32) (wfc : FVec Ideal ⟨2, ![60, 30]⟩ .f32)
    (g : FVec Ideal ⟨2, ![2000000, 60]⟩ .f32) (e : Fin 2000000) (f : Fin 30) : EReal :=
  Ideal.tanh (∑ h : Fin 60, (((∑ k : Fin 100, dist (ix2 e k) * wdf (ix2 k h)) + bdf (ix2 0 h)) * g (ix2 e h)) * wfc (ix2 h f))

/-- The hidden vectors of all atoms, as an array [100000, 60]. -/
def hiddenArr (feat : FVec Ideal ⟨2, ![100000, 30]⟩ .f32) (wcf : FVec Ideal ⟨2, ![30, 60]⟩ .f32)
    (bcf : FVec Ideal ⟨2, ![1, 60]⟩ .f32) : FVec Ideal ⟨2, ![100000, 60]⟩ .f32 :=
  fun i => hiddenAt feat wcf bcf ⟨(i 0).val, idx2_lt0 i⟩ ⟨(i 1).val, idx2_lt1 i⟩

/-- The self terms of all atoms, as an array [100000, 30]. -/
def selfArr (feat : FVec Ideal ⟨2, ![100000, 30]⟩ .f32) (wcf : FVec Ideal ⟨2, ![30, 60]⟩ .f32)
    (bcf bdf : FVec Ideal ⟨2, ![1, 60]⟩ .f32) (wfc : FVec Ideal ⟨2, ![60, 30]⟩ .f32) : FVec Ideal ⟨2, ![100000, 30]⟩ .f32 :=
  fun i => selfAt feat wcf bcf bdf wfc ⟨(i 0).val, idx2_lt0 i⟩ ⟨(i 1).val, idx2_lt1 i⟩

/-- The messages of all pairs, as an array [2000000, 30]. -/
def pairArr (dist : FVec Ideal ⟨2, ![2000000, 100]⟩ .f32) (wdf : FVec Ideal ⟨2, ![100, 60]⟩ .f32)
    (bdf : FVec Ideal ⟨2, ![1, 60]⟩ .f32) (wfc : FVec Ideal ⟨2, ![60, 30]⟩ .f32)
    (g : FVec Ideal ⟨2, ![2000000, 60]⟩ .f32) : FVec Ideal ⟨2, ![2000000, 30]⟩ .f32 :=
  fun i => pairAt dist wdf bdf wfc g ⟨(i 0).val, idx2_lt0 i⟩ ⟨(i 1).val, idx2_lt1 i⟩

end Cert.PairConv

end
-- ==== Proof.AtomValue.lean ====
import proofs.«426173_j76063870812667_1_alg».proof.Proof.Gen.KernelIdeal.Frame
import proofs.«426173_j76063870812667_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.AtomValue

open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-! ## The two contractions of the body, read at an index

The first contracts the 30 features of an atom against the weights into the 60 hidden channels; the second contracts
the 60 hidden channels against the weights back to 30 features. Each has one contracted axis, so its contraction index
is a single coordinate. -/

theorem lhs_feat_0 (i : S2000x60.Idx) (q : dot_S2000x30_S30x60_S2000x60_1_0_0_1_n_n.contr.Idx) :
    (dot_S2000x30_S30x60_S2000x60_1_0_0_1_n_n.lhsIdx i q 0).val = (i 0).val := by
  unfold DotDims.lhsIdx
  rw [dif_neg (show ¬(0 : Fin S2000x30.rank) ∈ dot_S2000x30_S30x60_S2000x60_1_0_0_1_n_n.lhsBatch by decide), dif_pos (show (0 : Fin S2000x30.rank) ∈ dot_S2000x30_S30x60_S2000x60_1_0_0_1_n_n.lhsNonContracting by decide)]
  rfl
theorem lhs_feat_1 (i : S2000x60.Idx) (q : dot_S2000x30_S30x60_S2000x60_1_0_0_1_n_n.contr.Idx) :
    (dot_S2000x30_S30x60_S2000x60_1_0_0_1_n_n.lhsIdx i q 1).val = (q ⟨0, by decide⟩).val :=
  dot_S2000x30_S30x60_S2000x60_1_0_0_1_n_n.lhsIdx_val_of_single rfl i q
theorem rhs_feat_0 (i : S2000x60.Idx) (q : dot_S2000x30_S30x60_S2000x60_1_0_0_1_n_n.contr.Idx) :
    (dot_S2000x30_S30x60_S2000x60_1_0_0_1_n_n.rhsIdx i q 0).val = (q ⟨0, by decide⟩).val :=
  dot_S2000x30_S30x60_S2000x60_1_0_0_1_n_n.rhsIdx_val_of_single rfl i q
theorem rhs_feat_1 (i : S2000x60.Idx) (q : dot_S2000x30_S30x60_S2000x60_1_0_0_1_n_n.contr.Idx) :
    (dot_S2000x30_S30x60_S2000x60_1_0_0_1_n_n.rhsIdx i q 1).val = (i 1).val := by
  unfold DotDims.rhsIdx
  rw [dif_neg (show ¬(1 : Fin S30x60.rank) ∈ dot_S2000x30_S30x60_S2000x60_1_0_0_1_n_n.rhsBatch by decide), dif_pos (show (1 : Fin S30x60.rank) ∈ dot_S2000x30_S30x60_S2000x60_1_0_0_1_n_n.rhsNonContracting by decide)]
  rfl

/-- The feature contraction into the zero accumulator, at row `p` and channel `h`, is the plain sum over the features. -/
theorem feat_matmul_apply (a : FVec Ideal S2000x30 .bf16) (b : FVec Ideal S30x60 .bf16) (p : Fin 2000) (h : Fin 60) :
    matmul (F := Ideal) dot_S2000x30_S30x60_S2000x60_1_0_0_1_n_n none a b (constant (F := Ideal) S2000x60 .f32 0x00000000#32) (ix2 p h)
      = ∑ k : Fin 30, a (ix2 p k) * b (ix2 k h) := by
  refine (Ideal.matmul_constant_zero_apply dot_S2000x30_S30x60_S2000x60_1_0_0_1_n_n none a b (ix2 p h)).trans ?_
  rw [← Equiv.sum_comp (ValueIdx.contrEquiv1 dot_S2000x30_S30x60_S2000x60_1_0_0_1_n_n 30 rfl rfl).symm]
  refine Finset.sum_congr rfl fun k _ => ?_
  have hk := ValueIdx.contrEquiv1_symm_val dot_S2000x30_S30x60_S2000x60_1_0_0_1_n_n 30 rfl rfl k
  have el : dot_S2000x30_S30x60_S2000x60_1_0_0_1_n_n.lhsIdx (ix2 p h) ((ValueIdx.contrEquiv1 dot_S2000x30_S30x60_S2000x60_1_0_0_1_n_n 30 rfl rfl).symm k) = ix2 p k := funext fun a => Fin.ext (by
    match a with
    | ⟨0, _⟩ => exact lhs_feat_0 _ _
    | ⟨1, _⟩ => exact (lhs_feat_1 _ _).trans hk)
  have er : dot_S2000x30_S30x60_S2000x60_1_0_0_1_n_n.rhsIdx (ix2 p h) ((ValueIdx.contrEquiv1 dot_S2000x30_S30x60_S2000x60_1_0_0_1_n_n 30 rfl rfl).symm k) = ix2 k h := funext fun a => Fin.ext (by
    match a with
    | ⟨0, _⟩ => exact (rhs_feat_0 _ _).trans hk
    | ⟨1, _⟩ => exact rhs_feat_1 _ _)
  rw [el, er]

theorem lhs_chan_0 (i : S2000x30.Idx) (q : dot_S2000x60_S60x30_S2000x30_1_0_0_1_n_n.contr.Idx) :
    (dot_S2000x60_S60x30_S2000x30_1_0_0_1_n_n.lhsIdx i q 0).val = (i 0).val := by
  unfold DotDims.lhsIdx
  rw [dif_neg (show ¬(0 : Fin S2000x60.rank) ∈ dot_S2000x60_S60x30_S2000x30_1_0_0_1_n_n.lhsBatch by decide), dif_pos (show (0 : Fin S2000x60.rank) ∈ dot_S2000x60_S60x30_S2000x30_1_0_0_1_n_n.lhsNonContracting by decide)]
  rfl
theorem lhs_chan_1 (i : S2000x30.Idx) (q : dot_S2000x60_S60x30_S2000x30_1_0_0_1_n_n.contr.Idx) :
    (dot_S2000x60_S60x30_S2000x30_1_0_0_1_n_n.lhsIdx i q 1).val = (q ⟨0, by decide⟩).val :=
  dot_S2000x60_S60x30_S2000x30_1_0_0_1_n_n.lhsIdx_val_of_single rfl i q
theorem rhs_chan_0 (i : S2000x30.Idx) (q : dot_S2000x60_S60x30_S2000x30_1_0_0_1_n_n.contr.Idx) :
    (dot_S2000x60_S60x30_S2000x30_1_0_0_1_n_n.rhsIdx i q 0).val = (q ⟨0, by decide⟩).val :=
  dot_S2000x60_S60x30_S2000x30_1_0_0_1_n_n.rhsIdx_val_of_single rfl i q
theorem rhs_chan_1 (i : S2000x30.Idx) (q : dot_S2000x60_S60x30_S2000x30_1_0_0_1_n_n.contr.Idx) :
    (dot_S2000x60_S60x30_S2000x30_1_0_0_1_n_n.rhsIdx i q 1).val = (i 1).val := by
  unfold DotDims.rhsIdx
  rw [dif_neg (show ¬(1 : Fin S60x30.rank) ∈ dot_S2000x60_S60x30_S2000x30_1_0_0_1_n_n.rhsBatch by decide), dif_pos (show (1 : Fin S60x30.rank) ∈ dot_S2000x60_S60x30_S2000x30_1_0_0_1_n_n.rhsNonContracting by decide)]
  rfl

/-- The channel contraction into the zero accumulator, at row `p` and feature `f`, is the plain sum over the channels. -/
theorem chan_matmul_apply (a : FVec Ideal S2000x60 .bf16) (b : FVec Ideal S60x30 .bf16) (p : Fin 2000) (f : Fin 30) :
    matmul (F := Ideal) dot_S2000x60_S60x30_S2000x30_1_0_0_1_n_n none a b (constant (F := Ideal) S2000x30 .f32 0x00000000#32) (ix2 p f)
      = ∑ h : Fin 60, a (ix2 p h) * b (ix2 h f) := by
  refine (Ideal.matmul_constant_zero_apply dot_S2000x60_S60x30_S2000x30_1_0_0_1_n_n none a b (ix2 p f)).trans ?_
  rw [← Equiv.sum_comp (ValueIdx.contrEquiv1 dot_S2000x60_S60x30_S2000x30_1_0_0_1_n_n 60 rfl rfl).symm]
  refine Finset.sum_congr rfl fun k _ => ?_
  have hk := ValueIdx.contrEquiv1_symm_val dot_S2000x60_S60x30_S2000x30_1_0_0_1_n_n 60 rfl rfl k
  have el : dot_S2000x60_S60x30_S2000x30_1_0_0_1_n_n.lhsIdx (ix2 p f) ((ValueIdx.contrEquiv1 dot_S2000x60_S60x30_S2000x30_1_0_0_1_n_n 60 rfl rfl).symm k) = ix2 p k := funext fun a => Fin.ext (by
    match a with
    | ⟨0, _⟩ => exact lhs_chan_0 _ _
    | ⟨1, _⟩ => exact (lhs_chan_1 _ _).trans hk)
  have er : dot_S2000x60_S60x30_S2000x30_1_0_0_1_n_n.rhsIdx (ix2 p f) ((ValueIdx.contrEquiv1 dot_S2000x60_S60x30_S2000x30_1_0_0_1_n_n 60 rfl rfl).symm k) = ix2 k f := funext fun a => Fin.ext (by
    match a with
    | ⟨0, _⟩ => exact (rhs_chan_0 _ _).trans hk
    | ⟨1, _⟩ => exact rhs_chan_1 _ _)
  rw [el, er]

/-! ## The body's two results at a block-local index -/

/-- The hidden block at row `p`, channel `h`: the features of row `p` against column `h` of the weights, plus the bias. -/
theorem hidden_pay (x0 : Vec Ideal S2000x30 .f32) (x1 : Vec Ideal S30x60 .f32) (x2 : Vec Ideal S1x60 .f32) (p : Fin 2000) (h : Fin 60) :
    k0_pay1 (F := Ideal) x0 x1 x2 (ix2 p h) = (∑ k : Fin 30, x0 (ix2 p k) * x1 (ix2 k h)) + x2 (ix2 (0 : Fin 1) h) := by
  unfold k0_pay1
  refine (addf_apply _ _ _).trans ?_
  rw [shapeCast_self]
  refine congrArg₂ (· + ·) ?_ (broadcastTo_1b_ab_apply x2 broadcasts_S1x60_S2000x60 p h)
  exact feat_matmul_apply _ _ p h

/-- The self-term block at row `p`, feature `f`. -/
theorem self_pay (x0 : Vec Ideal S2000x30 .f32) (x1 : Vec Ideal S30x60 .f32) (x2 x3 : Vec Ideal S1x60 .f32) (x4 : Vec Ideal S60x30 .f32) (p : Fin 2000) (f : Fin 30) :
    k0_pay2 (F := Ideal) x0 x1 x2 x3 x4 (ix2 p f)
      = Ideal.tanh (∑ h : Fin 60, (x3 (ix2 (0 : Fin 1) h) * ((∑ k : Fin 30, x0 (ix2 p k) * x1 (ix2 k h)) + x2 (ix2 (0 : Fin 1) h))) * x4 (ix2 h f)) := by
  unfold k0_pay2
  show Ideal.tanh _ = _
  refine congrArg Ideal.tanh ?_
  refine (chan_matmul_apply _ _ p f).trans ?_
  refine Finset.sum_congr rfl fun h _ => ?_
  refine congrArg₂ (· * ·) ?_ rfl
  refine (truncf_apply (ψ := .bf16) _ bitsLt_bf16_f32 (ix2 p h)).trans ?_
  refine (mulf_apply _ _ _).trans ?_
  rw [shapeCast_self]
  exact congrArg₂ (· * ·) (broadcastTo_1b_ab_apply x3 broadcasts_S1x60_S2000x60 p h) (hidden_pay x0 x1 x2 p h)

/-! ## Where the blocks sit in their arrays

At point `t` the feature window and both output windows are at row block `t` (rows `2000·t …`), and the four small
windows are their whole arrays. -/

theorem zero_offsets : (![0, 0] : Fin 2 → Nat) = fun _ => 0 := funext fun a => by fin_cases a <;> rfl

/-- The block indices of the seven windows at each of the 50 points. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The feature block at point `t` is rows `2000·t … 2000·t + 1999` of the feature array. -/
theorem feat_block (c : Dev nD) (t : Fin cfg0.N) (y : S2000x30.Idx) (i : S100000x30.Idx)
    (h0 : (i 0).val = t.val * 2000 + (y 0).val) (h1 : (i 1).val = (y 1).val) :
    (iblk0 (F := Ideal) V c 0 t : Vec Ideal S2000x30 .f32) y = (V c main_arg0 : S100000x30.Idx → Elt Ideal .f32) i := by
  obtain ⟨e0, e1, -⟩ := block_indices t
  show V c main_arg0 (((cfg0.win 0).blk t).view.emb y) = V c main_arg0 i
  refine congrArg _ (funext fun a => Fin.ext ?_)
  match a with
  | ⟨0, _⟩ => show win0_0.index t (0 : Fin 2) * 2000 + 1 * (y 0).val = (i 0).val; omega
  | ⟨1, _⟩ => show win0_0.index t (1 : Fin 2) * 30 + 1 * (y 1).val = (i 1).val; omega

/-- The first weight block is the whole first weight array. -/
theorem wcf_block (c : Dev nD) (t : Fin cfg0.N) (y : S30x60.Idx) :
    (iblk0 (F := Ideal) V c 1 t : Vec Ideal S30x60 .f32) y = (V c main_arg4 : S30x60.Idx → Elt Ideal .f32) y := by
  obtain ⟨-, -, e0, e1, -⟩ := block_indices t
  show V c main_arg4 (((cfg0.win 1).blk t).view.emb y) = V c main_arg4 y
  refine congrArg _ (funext fun a => Fin.ext ?_)
  match a with
  | ⟨0, _⟩ => show win0_1.index t (0 : Fin 2) * 30 + 1 * (y 0).val = (y 0).val; omega
  | ⟨1, _⟩ => show win0_1.index t (1 : Fin 2) * 60 + 1 * (y 1).val = (y 1).val; omega

/-- The first bias block is the whole first bias row. -/
theorem bcf_block (c : Dev nD) (t : Fin cfg0.N) (y : S1x60.Idx) :
    (iblk0 (F := Ideal) V c 2 t : Vec Ideal S1x60 .f32) y = (V c main_v0 : S1x60.Idx → Elt Ideal .f32) y := by
  obtain ⟨-, -, -, -, e0, e1, -⟩ := block_indices t
  show V c main_v0 (((cfg0.win 2).blk t).view.emb y) = V c main_v0 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 60 + 1 * (y 1).val = (y 1).val; omega

/-- The second bias block is the whole second bias row. -/
theorem bdf_block (c : Dev nD) (t : Fin cfg0.N) (y : S1x60.Idx) :
    (iblk0 (F := Ideal) V c 3 t : Vec Ideal S1x60 .f32) y = (V c main_v1 : S1x60.Idx → Elt Ideal .f32) y := by
  obtain ⟨-, -, -, -, -, -, e0, e1, -⟩ := block_indices t
  show V c main_v1 (((cfg0.win 3).blk t).view.emb y) = V c main_v1 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 60 + 1 * (y 1).val = (y 1).val; omega

/-- The second weight block is the whole second weight array. -/
theorem wfc_block (c : Dev nD) (t : Fin cfg0.N) (y : S60x30.Idx) :
    (iblk0 (F := Ideal) V c 4 t : Vec Ideal S60x30 .f32) y = (V c main_arg6 : S60x30.Idx → Elt Ideal .f32) y := by
  obtain ⟨-, -, -, -, -, -, -, -, e0, e1, -⟩ := block_indices t
  show V c main_arg6 (((cfg0.win 4).blk t).view.emb y) = V c main_arg6 y
  refine congrArg _ (funext fun a => Fin.ext ?_)
  match a with
  | ⟨0, _⟩ => show win0_4.index t (0 : Fin 2) * 60 + 1 * (y 0).val = (y 0).val; omega
  | ⟨1, _⟩ => show win0_4.index t (1 : Fin 2) * 30 + 1 * (y 1).val = (y 1).val; omega

/-! ## The hidden array -/

/-- The specification's hidden array at an index whose coordinates are `n` and `h`. -/
theorem hiddenArr_apply (feat : FVec Ideal ⟨2, ![100000, 30]⟩ .f32) (wcf : FVec Ideal ⟨2, ![30, 60]⟩ .f32)
    (bcf : FVec Ideal ⟨2, ![1, 60]⟩ .f32) (i : S100000x60.Idx) (n : Fin 100000) (h : Fin 60)
    (hn : (i 0).val = n.val) (hh : (i 1).val = h.val) :
    Cert.PairConv.hiddenArr feat wcf bcf i = Cert.PairConv.hiddenAt feat wcf bcf n h := by
  unfold Cert.PairConv.hiddenArr
  exact congrArg₂ _ (Fin.ext hn) (Fin.ext hh)

/-- What point `t` writes back to the hidden array is rows `2000·t …` of the specification's hidden array. -/
theorem hidden_flushed (c : Dev nD) (t : Fin cfg0.N) :
    (dat0 (F := Ideal) V c).flushed 5 t
      = ((cfg0.win 5).blk t).view.read (Elt Ideal) (Cert.PairConv.hiddenArr (V c main_arg0) (V c main_arg4) (V c main_v0)) := by
  show (cfg0.win 5).cut (grid0.coords t) ((dat0 V c).after 5 t) = _
  rw [after0_5]
  unfold out0_5
  rw [View.canon_unit_zero zero_offsets]
  simp only [View.ld_unit_zero (S := S2000x30) zero_offsets, View.ld_unit_zero (S := S30x60) zero_offsets, View.ld_unit_zero (S := S1x60) zero_offsets]
  funext j
  obtain ⟨p, q, rfl⟩ : ∃ (p : Fin 2000) (q : Fin 60), j = ix2 p q := ⟨j 0, j 1, eq_ix2 j⟩
  refine (hidden_pay _ _ _ p q).trans ?_
  have hN : grid0.N = 50 := N_0
  have ht : t.val < 50 := hN ▸ t.isLt
  obtain ⟨-, -, -, -, -, -, -, -, -, -, e0, e1, -⟩ := block_indices t
  refine Eq.trans ?_ (hiddenArr_apply _ _ _ (((cfg0.win 5).blk t).view.emb (ix2 p q)) ⟨t.val * 2000 + p.val, by omega⟩ q
    (by show win0_5.index t (0 : Fin 2) * 2000 + 1 * p.val = t.val * 2000 + p.val; omega)
    (by show win0_5.index t (1 : Fin 2) * 60 + 1 * q.val = q.val; omega)).symm
  unfold Cert.PairConv.hiddenAt
  refine congrArg₂ (· + ·) (Finset.sum_congr rfl fun k _ => congrArg₂ (· * ·) ?_ ?_) ?_
  · exact feat_block V c t (ix2 p k) _ rfl rfl
  · exact wcf_block V c t (ix2 k q)
  · exact bcf_block V c t (ix2 (0 : Fin 1) q)

/-- An index of the hidden array is in point `t`'s block iff each coordinate is in the block's range on its axis. -/
theorem mem_hidden_block (t : Fin cfg0.N) (i : S100000x60.Idx) :
    i ∈ ((cfg0.win 5).blk t).view.set ↔ ∀ a : Fin 2, win0_5.index t a * S2000x60.size a ≤ (i a).val ∧ (i a).val < win0_5.index t a * S2000x60.size a + S2000x60.size a := by
  show i ∈ ((View.whole main_v2_0).slice (win0_5.rect t)).set ↔ _
  rw [View.set_slice_whole, Rect.mem_set_unit]
  exact Iff.rfl

/-- Row `r` of the hidden array is written back by point `r / 2000`. -/
theorem hidden_cover (i : S100000x60.Idx) :
    ∃ t : Fin cfg0.N, (cfg0.win 5).flush t = true ∧ i ∈ ((cfg0.win 5).blk t).view.set := by
  have hi0 : (i 0).val < 100000 := idx2_lt0 i
  have hi1 : (i 1).val < 60 := idx2_lt1 i
  obtain ⟨t, ht⟩ : ∃ t : Fin cfg0.N, t.val = (i 0).val / 2000 :=
    ⟨⟨(i 0).val / 2000, by show (i 0).val / 2000 < grid0.N; rw [N_0]; omega⟩, rfl⟩
  obtain ⟨-, -, -, -, -, -, -, -, -, -, e0, e1, -⟩ := block_indices t
  refine ⟨t, flush0_5 t, ?_⟩
  rw [mem_hidden_block]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 60 ≤ (i 1).val ∧ (i 1).val < win0_5.index t (1 : Fin 2) * 60 + 60; omega

/-- After the atom pipeline's 50 points the hidden array holds every atom's hidden vector. -/
theorem hidden_final (c : Dev nD) :
    (dat0 (F := Ideal) V c).arrAt 5 cfg0.N = Cert.PairConv.hiddenArr (V c main_arg0) (V c main_arg4) (V c main_v0) :=
  (dat0 (F := Ideal) V c).arrAt_eq_of_cover 5 _ (fun t _ => hidden_flushed V c t) hidden_cover

/-! ## The self-term array -/

/-- The specification's self-term array at an index whose coordinates are `n` and `f`. -/
theorem selfArr_apply (feat : FVec Ideal ⟨2, ![100000, 30]⟩ .f32) (wcf : FVec Ideal ⟨2, ![30, 60]⟩ .f32)
    (bcf bdf : FVec Ideal ⟨2, ![1, 60]⟩ .f32) (wfc : FVec Ideal ⟨2, ![60, 30]⟩ .f32) (i : S100000x30.Idx) (n : Fin 100000) (f : Fin 30)
    (hn : (i 0).val = n.val) (hf : (i 1).val = f.val) :
    Cert.PairConv.selfArr feat wcf bcf bdf wfc i = Cert.PairConv.selfAt feat wcf bcf bdf wfc n f := by
  unfold Cert.PairConv.selfArr
  exact congrArg₂ _ (Fin.ext hn) (Fin.ext hf)

/-- What point `t` writes back to the self-term array is rows `2000·t …` of the specification's self-term array. -/
theorem self_flushed (c : Dev nD) (t : Fin cfg0.N) :
    (dat0 (F := Ideal) V c).flushed 6 t
      = ((cfg0.win 6).blk t).view.read (Elt Ideal)
          (Cert.PairConv.selfArr (V c main_arg0) (V c main_arg4) (V c main_v0) (V c main_v1) (V c main_arg6)) := by
  show (cfg0.win 6).cut (grid0.coords t) ((dat0 V c).after 6 t) = _
  rw [after0_6]
  unfold out0_6
  rw [View.canon_unit_zero zero_offsets]
  simp only [View.ld_unit_zero (S := S2000x30) zero_offsets, View.ld_unit_zero (S := S30x60) zero_offsets, View.ld_unit_zero (S := S1x60) zero_offsets, View.ld_unit_zero (S := S60x30) zero_offsets]
  funext j
  obtain ⟨p, q, rfl⟩ : ∃ (p : Fin 2000) (q : Fin 30), j = ix2 p q := ⟨j 0, j 1, eq_ix2 j⟩
  refine (self_pay _ _ _ _ _ p q).trans ?_
  have hN : grid0.N = 50 := N_0
  have ht : t.val < 50 := hN ▸ t.isLt
  obtain ⟨-, -, -, -, -, -, -, -, -, -, -, -, e0, e1⟩ := block_indices t
  refine Eq.trans ?_ (selfArr_apply _ _ _ _ _ (((cfg0.win 6).blk t).view.emb (ix2 p q)) ⟨t.val * 2000 + p.val, by omega⟩ q
    (by show win0_6.index t (0 : Fin 2) * 2000 + 1 * p.val = t.val * 2000 + p.val; omega)
    (by show win0_6.index t (1 : Fin 2) * 30 + 1 * q.val = q.val; omega)).symm
  unfold Cert.PairConv.selfAt Cert.PairConv.hiddenAt
  refine congrArg Ideal.tanh (Finset.sum_congr rfl fun h _ => congrArg₂ (· * ·) (congrArg₂ (· * ·) ?_
    (congrArg₂ (· + ·) (Finset.sum_congr rfl fun k _ => congrArg₂ (· * ·) ?_ ?_) ?_)) ?_)
  · exact bdf_block V c t (ix2 (0 : Fin 1) h)
  · exact feat_block V c t (ix2 p k) _ rfl rfl
  · exact wcf_block V c t (ix2 k h)
  · exact bcf_block V c t (ix2 (0 : Fin 1) h)
  · exact wfc_block V c t (ix2 h q)

/-- An index of the self-term array is in point `t`'s block iff each coordinate is in the block's range on its axis. -/
theorem mem_self_block (t : Fin cfg0.N) (i : S100000x30.Idx) :
    i ∈ ((cfg0.win 6).blk t).view.set ↔ ∀ a : Fin 2, win0_6.index t a * S2000x30.size a ≤ (i a).val ∧ (i a).val < win0_6.index t a * S2000x30.size a + S2000x30.size a := by
  show i ∈ ((View.whole main_v2_1).slice (win0_6.rect t)).set ↔ _
  rw [View.set_slice_whole, Rect.mem_set_unit]
  exact Iff.rfl

/-- Row `r` of the self-term array is written back by point `r / 2000`. -/
theorem self_cover (i : S100000x30.Idx) :
    ∃ t : Fin cfg0.N, (cfg0.win 6).flush t = true ∧ i ∈ ((cfg0.win 6).blk t).view.set := by
  have hi0 : (i 0).val < 100000 := idx2_lt0 i
  have hi1 : (i 1).val < 30 := idx2_lt1 i
  obtain ⟨t, ht⟩ : ∃ t : Fin cfg0.N, t.val = (i 0).val / 2000 :=
    ⟨⟨(i 0).val / 2000, by show (i 0).val / 2000 < grid0.N; rw [N_0]; omega⟩, rfl⟩
  obtain ⟨-, -, -, -, -, -, -, -, -, -, -, -, e0, e1⟩ := block_indices t
  refine ⟨t, flush0_6 t, ?_⟩
  rw [mem_self_block]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 30 ≤ (i 1).val ∧ (i 1).val < win0_6.index t (1 : Fin 2) * 30 + 30; omega

/-- After the atom pipeline's 50 points the self-term array holds every atom's self term. -/
theorem self_final (c : Dev nD) :
    (dat0 (F := Ideal) V c).arrAt 6 cfg0.N
      = Cert.PairConv.selfArr (V c main_arg0) (V c main_arg4) (V c main_v0) (V c main_v1) (V c main_arg6) :=
  (dat0 (F := Ideal) V c).arrAt_eq_of_cover 6 _ (fun t _ => self_flushed V c t) self_cover

end Cert.KernelIdeal.AtomValue

end
-- ==== Proof.PairValue.lean ====
import proofs.«426173_j76063870812667_1_alg».proof.Proof.Gen.KernelIdeal.Frame
import proofs.«426173_j76063870812667_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.PairValue

open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

/-! ## The body's two contractions, read at an index

Each is a matrix product into the zero accumulator: at `(p, h)` the sum over the contracted coordinate `k` of the left
operand at `(p, k)` times the right operand at `(k, h)`. -/

theorem lhs_mix_0 (i : S5000x60.Idx) (q : dot_S5000x100_S100x60_S5000x60_1_0_0_1_n_n.contr.Idx) :
    (dot_S5000x100_S100x60_S5000x60_1_0_0_1_n_n.lhsIdx i q 0).val = (i 0).val := by
  unfold DotDims.lhsIdx
  rw [dif_neg (show ¬(0 : Fin S5000x100.rank) ∈ dot_S5000x100_S100x60_S5000x60_1_0_0_1_n_n.lhsBatch by decide), dif_pos (show (0 : Fin S5000x100.rank) ∈ dot_S5000x100_S100x60_S5000x60_1_0_0_1_n_n.lhsNonContracting by decide)]
  rfl
theorem lhs_mix_1 (i : S5000x60.Idx) (q : dot_S5000x100_S100x60_S5000x60_1_0_0_1_n_n.contr.Idx) :
    (dot_S5000x100_S100x60_S5000x60_1_0_0_1_n_n.lhsIdx i q 1).val = (q ⟨0, by decide⟩).val :=
  dot_S5000x100_S100x60_S5000x60_1_0_0_1_n_n.lhsIdx_val_of_single rfl i q
theorem rhs_mix_0 (i : S5000x60.Idx) (q : dot_S5000x100_S100x60_S5000x60_1_0_0_1_n_n.contr.Idx) :
    (dot_S5000x100_S100x60_S5000x60_1_0_0_1_n_n.rhsIdx i q 0).val = (q ⟨0, by decide⟩).val :=
  dot_S5000x100_S100x60_S5000x60_1_0_0_1_n_n.rhsIdx_val_of_single rfl i q
theorem rhs_mix_1 (i : S5000x60.Idx) (q : dot_S5000x100_S100x60_S5000x60_1_0_0_1_n_n.contr.Idx) :
    (dot_S5000x100_S100x60_S5000x60_1_0_0_1_n_n.rhsIdx i q 1).val = (i 1).val := by
  unfold DotDims.rhsIdx
  rw [dif_neg (show ¬(1 : Fin S100x60.rank) ∈ dot_S5000x100_S100x60_S5000x60_1_0_0_1_n_n.rhsBatch by decide), dif_pos (show (1 : Fin S100x60.rank) ∈ dot_S5000x100_S100x60_S5000x60_1_0_0_1_n_n.rhsNonContracting by decide)]
  rfl

/-- The distance block times the distance-to-hidden weights: channel `h` of row `p`. -/
theorem mix_apply (x : FVec Ideal S5000x100 .bf16) (y : FVec Ideal S100x60 .bf16) (p : Fin 5000) (h : Fin 60) :
    matmul (F := Ideal) dot_S5000x100_S100x60_S5000x60_1_0_0_1_n_n none x y (constant (F := Ideal) S5000x60 .f32 0x00000000#32) (ix2 p h)
      = ∑ k : Fin 100, x (ix2 p k) * y (ix2 k h) := by
  refine (Ideal.matmul_constant_zero_apply dot_S5000x100_S100x60_S5000x60_1_0_0_1_n_n none x y (ix2 p h)).trans ?_
  rw [← Equiv.sum_comp (ValueIdx.contrEquiv1 dot_S5000x100_S100x60_S5000x60_1_0_0_1_n_n 100 rfl rfl).symm]
  refine Finset.sum_congr rfl fun k _ => ?_
  have hk := ValueIdx.contrEquiv1_symm_val dot_S5000x100_S100x60_S5000x60_1_0_0_1_n_n 100 rfl rfl k
  have el : dot_S5000x100_S100x60_S5000x60_1_0_0_1_n_n.lhsIdx (ix2 p h) ((ValueIdx.contrEquiv1 dot_S5000x100_S100x60_S5000x60_1_0_0_1_n_n 100 rfl rfl).symm k) = ix2 p k := funext fun a => Fin.ext (by
    match a with
    | ⟨0, _⟩ => exact lhs_mix_0 _ _
    | ⟨1, _⟩ => exact (lhs_mix_1 _ _).trans hk)
  have er : dot_S5000x100_S100x60_S5000x60_1_0_0_1_n_n.rhsIdx (ix2 p h) ((ValueIdx.contrEquiv1 dot_S5000x100_S100x60_S5000x60_1_0_0_1_n_n 100 rfl rfl).symm k) = ix2 k h := funext fun a => Fin.ext (by
    match a with
    | ⟨0, _⟩ => exact (rhs_mix_0 _ _).trans hk
    | ⟨1, _⟩ => exact rhs_mix_1 _ _)
  rw [el, er]

theorem lhs_out_0 (i : S5000x30.Idx) (q : dot_S5000x60_S60x30_S5000x30_1_0_0_1_n_n.contr.Idx) :
    (dot_S5000x60_S60x30_S5000x30_1_0_0_1_n_n.lhsIdx i q 0).val = (i 0).val := by
  unfold DotDims.lhsIdx
  rw [dif_neg (show ¬(0 : Fin S5000x60.rank) ∈ dot_S5000x60_S60x30_S5000x30_1_0_0_1_n_n.lhsBatch by decide), dif_pos (show (0 : Fin S5000x60.rank) ∈ dot_S5000x60_S60x30_S5000x30_1_0_0_1_n_n.lhsNonContracting by decide)]
  rfl
theorem lhs_out_1 (i : S5000x30.Idx) (q : dot_S5000x60_S60x30_S5000x30_1_0_0_1_n_n.contr.Idx) :
    (dot_S5000x60_S60x30_S5000x30_1_0_0_1_n_n.lhsIdx i q 1).val = (q ⟨0, by decide⟩).val :=
  dot_S5000x60_S60x30_S5000x30_1_0_0_1_n_n.lhsIdx_val_of_single rfl i q
theorem rhs_out_0 (i : S5000x30.Idx) (q : dot_S5000x60_S60x30_S5000x30_1_0_0_1_n_n.contr.Idx) :
    (dot_S5000x60_S60x30_S5000x30_1_0_0_1_n_n.rhsIdx i q 0).val = (q ⟨0, by decide⟩).val :=
  dot_S5000x60_S60x30_S5000x30_1_0_0_1_n_n.rhsIdx_val_of_single rfl i q
theorem rhs_out_1 (i : S5000x30.Idx) (q : dot_S5000x60_S60x30_S5000x30_1_0_0_1_n_n.contr.Idx) :
    (dot_S5000x60_S60x30_S5000x30_1_0_0_1_n_n.rhsIdx i q 1).val = (i 1).val := by
  unfold DotDims.rhsIdx
  rw [dif_neg (show ¬(1 : Fin S60x30.rank) ∈ dot_S5000x60_S60x30_S5000x30_1_0_0_1_n_n.rhsBatch by decide), dif_pos (show (1 : Fin S60x30.rank) ∈ dot_S5000x60_S60x30_S5000x30_1_0_0_1_n_n.rhsNonContracting by decide)]
  rfl

/-- The weighted hidden block times the hidden-to-feature weights: feature `f` of row `p`. -/
theorem out_apply (x : FVec Ideal S5000x60 .bf16) (y : FVec Ideal S60x30 .bf16) (p : Fin 5000) (f : Fin 30) :
    matmul (F := Ideal) dot_S5000x60_S60x30_S5000x30_1_0_0_1_n_n none x y (constant (F := Ideal) S5000x30 .f32 0x00000000#32) (ix2 p f)
      = ∑ h : Fin 60, x (ix2 p h) * y (ix2 h f) := by
  refine (Ideal.matmul_constant_zero_apply dot_S5000x60_S60x30_S5000x30_1_0_0_1_n_n none x y (ix2 p f)).trans ?_
  rw [← Equiv.sum_comp (ValueIdx.contrEquiv1 dot_S5000x60_S60x30_S5000x30_1_0_0_1_n_n 60 rfl rfl).symm]
  refine Finset.sum_congr rfl fun k _ => ?_
  have hk := ValueIdx.contrEquiv1_symm_val dot_S5000x60_S60x30_S5000x30_1_0_0_1_n_n 60 rfl rfl k
  have el : dot_S5000x60_S60x30_S5000x30_1_0_0_1_n_n.lhsIdx (ix2 p f) ((ValueIdx.contrEquiv1 dot_S5000x60_S60x30_S5000x30_1_0_0_1_n_n 60 rfl rfl).symm k) = ix2 p k := funext fun a => Fin.ext (by
    match a with
    | ⟨0, _⟩ => exact lhs_out_0 _ _
    | ⟨1, _⟩ => exact (lhs_out_1 _ _).trans hk)
  have er : dot_S5000x60_S60x30_S5000x30_1_0_0_1_n_n.rhsIdx (ix2 p f) ((ValueIdx.contrEquiv1 dot_S5000x60_S60x30_S5000x30_1_0_0_1_n_n 60 rfl rfl).symm k) = ix2 k f := funext fun a => Fin.ext (by
    match a with
    | ⟨0, _⟩ => exact (rhs_out_0 _ _).trans hk
    | ⟨1, _⟩ => exact rhs_out_1 _ _)
  rw [el, er]

/-- The one-row bias broadcast over the rows reads its row `0` at every row. -/
theorem bias_apply (b : FVec Ideal S1x60 .f32) (hb : S1x60.Broadcasts S5000x60) (p : Fin 5000) (h : Fin 60) :
    broadcastTo S5000x60 b hb (ix2 p h) = b (ix2 0 h) :=
  broadcastTo_apply b hb (ix2 p h) (ix2 0 h) (fun a => match a with
    | ⟨0, _⟩ => by show (0 : Nat) = if (1 : Nat) = 1 then 0 else _; rw [if_pos rfl]
    | ⟨1, _⟩ => by show h.val = if (60 : Nat) = 1 then 0 else h.val; rw [if_neg (by decide)])

/-- The hyperbolic tangent of a vector, read at an index. -/
theorem tanh_apply {s : Shape} {φ : FTy} (x : FVec Ideal s φ) (i : s.Idx) : tanh x i = Ideal.tanh (x i) := rfl

/-! ## The body's payload at an index -/

/-- Feature `f` of row `p` of what the body stores, from its five loaded blocks: the pair formula on the block's rows. -/
theorem pay_apply (d : Vec Ideal S5000x100 .f32) (wdf : Vec Ideal S100x60 .f32) (b : Vec Ideal S1x60 .f32)
    (g : Vec Ideal S5000x60 .f32) (wfc : Vec Ideal S60x30 .f32) (p : Fin 5000) (f : Fin 30) :
    k1_pay1 (F := Ideal) d wdf b g wfc (ix2 p f)
      = Ideal.tanh (∑ h : Fin 60, (((∑ k : Fin 100, d (ix2 p k) * wdf (ix2 k h)) + b (ix2 0 h)) * g (ix2 p h)) * wfc (ix2 h f)) := by
  unfold k1_pay1
  simp only [shapeCast_self]
  rw [tanh_apply, out_apply]
  refine congrArg Ideal.tanh (Finset.sum_congr rfl fun h _ => ?_)
  rw [truncf_apply, truncf_apply, mulf_apply, addf_apply, mix_apply, bias_apply]
  simp only [truncf_apply]

/-! ## Where each window's block sits in its array -/

theorem hz : (![0, 0] : Fin 2 → Nat) = fun _ => 0 := funext fun a => by fin_cases a <;> rfl

/-- The printed index maps, decided over the 400 points: the distance, hidden and message windows sit at block row `t`,
    block column `0`; the two weight matrices and the bias row are their arrays' only block. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The grid has 400 points. -/
theorem point_lt (t : Fin cfg1.N) : t.val < 400 := t.isLt.trans_eq Gen.N_1

/-- Row `p` of point `t`'s distance block is row `5000·t + p` of the distance array. -/
theorem dist_block (c : Dev nD) (t : Fin cfg1.N) (p : Fin 5000) (k : Fin 100) (e : Fin 2000000)
    (he : e.val = 5000 * t.val + p.val) :
    (iblk1 (F := Ideal) V c 0 t : Vec Ideal S5000x100 .f32) (ix2 p k) = V c main_arg1 (ix2 e k) := by
  obtain ⟨e0, e1, -⟩ := index_facts t
  unfold iblk1
  show V c main_arg1 (((cfg1.win 0).blk t).view.emb (ix2 p k)) = V c main_arg1 (ix2 e k)
  refine congrArg (V c main_arg1) (funext fun a => Fin.ext ?_)
  match a with
  | ⟨0, _⟩ => show win1_0.index t (0 : Fin 2) * 5000 + 1 * p.val = e.val; omega
  | ⟨1, _⟩ => show win1_0.index t (1 : Fin 2) * 100 + 1 * k.val = k.val; omega

/-- Row `p` of point `t`'s gathered hidden block is row `5000·t + p` of the gathered hidden array. -/
theorem hid_block (c : Dev nD) (t : Fin cfg1.N) (p : Fin 5000) (h : Fin 60) (e : Fin 2000000)
    (he : e.val = 5000 * t.val + p.val) :
    (iblk1 (F := Ideal) V c 1 t : Vec Ideal S5000x60 .f32) (ix2 p h) = V c main_v3 (ix2 e h) := by
  obtain ⟨-, -, e0, e1, -⟩ := index_facts t
  unfold iblk1
  show V c main_v3 (((cfg1.win 1).blk t).view.emb (ix2 p h)) = V c main_v3 (ix2 e h)
  refine congrArg (V c main_v3) (funext fun a => Fin.ext ?_)
  match a with
  | ⟨0, _⟩ => show win1_1.index t (0 : Fin 2) * 5000 + 1 * p.val = e.val; omega
  | ⟨1, _⟩ => show win1_1.index t (1 : Fin 2) * 60 + 1 * h.val = h.val; omega

/-- At every point the distance-to-hidden weights' block is the whole matrix. -/
theorem wdf_block (c : Dev nD) (t : Fin cfg1.N) (k : Fin 100) (h : Fin 60) :
    (iblk1 (F := Ideal) V c 2 t : Vec Ideal S100x60 .f32) (ix2 k h) = V c main_arg5 (ix2 k h) := by
  obtain ⟨-, -, -, -, e0, e1, -⟩ := index_facts t
  unfold iblk1
  show V c main_arg5 (((cfg1.win 2).blk t).view.emb (ix2 k h)) = V c main_arg5 (ix2 k h)
  refine congrArg (V c main_arg5) (funext fun a => Fin.ext ?_)
  match a with
  | ⟨0, _⟩ => show win1_2.index t (0 : Fin 2) * 100 + 1 * k.val = k.val; omega
  | ⟨1, _⟩ => show win1_2.index t (1 : Fin 2) * 60 + 1 * h.val = h.val; omega

/-- At every point the bias's block is the whole one-row matrix. -/
theorem bias_block (c : Dev nD) (t : Fin cfg1.N) (h : Fin 60) :
    (iblk1 (F := Ideal) V c 3 t : Vec Ideal S1x60 .f32) (ix2 0 h) = V c main_v4 (ix2 0 h) := by
  obtain ⟨-, -, -, -, -, -, e0, e1, -⟩ := index_facts t
  unfold iblk1
  show V c main_v4 (((cfg1.win 3).blk t).view.emb (ix2 0 h)) = V c main_v4 (ix2 0 h)
  refine congrArg (V c main_v4) (funext fun a => Fin.ext ?_)
  match a with
  | ⟨0, _⟩ => show win1_3.index t (0 : Fin 2) * 1 + 1 * 0 = 0; omega
  | ⟨1, _⟩ => show win1_3.index t (1 : Fin 2) * 60 + 1 * h.val = h.val; omega

/-- At every point the hidden-to-feature weights' block is the whole matrix. -/
theorem wfc_block (c : Dev nD) (t : Fin cfg1.N) (h : Fin 60) (f : Fin 30) :
    (iblk1 (F := Ideal) V c 4 t : Vec Ideal S60x30 .f32) (ix2 h f) = V c main_arg6 (ix2 h f) := by
  obtain ⟨-, -, -, -, -, -, -, -, e0, e1, -⟩ := index_facts t
  unfold iblk1
  show V c main_arg6 (((cfg1.win 4).blk t).view.emb (ix2 h f)) = V c main_arg6 (ix2 h f)
  refine congrArg (V c main_arg6) (funext fun a => Fin.ext ?_)
  match a with
  | ⟨0, _⟩ => show win1_4.index t (0 : Fin 2) * 60 + 1 * h.val = h.val; omega
  | ⟨1, _⟩ => show win1_4.index t (1 : Fin 2) * 30 + 1 * f.val = f.val; omega

/-- Row `p` of point `t`'s block of a message array is its row `5000·t + p`. -/
theorem msg_block (G : FVec Ideal ⟨2, ![2000000, 30]⟩ .f32) (t : Fin cfg1.N) (p : Fin 5000) (f : Fin 30) (e : Fin 2000000)
    (he : e.val = 5000 * t.val + p.val) :
    (((cfg1.win 5).blk t).view.read (Elt Ideal) G : Vec Ideal S5000x30 .f32) (ix2 p f) = G (ix2 e f) := by
  obtain ⟨-, -, -, -, -, -, -, -, -, -, e0, e1⟩ := index_facts t
  show G (((cfg1.win 5).blk t).view.emb (ix2 p f)) = G (ix2 e f)
  refine congrArg G (funext fun a => Fin.ext ?_)
  match a with
  | ⟨0, _⟩ => show win1_5.index t (0 : Fin 2) * 5000 + 1 * p.val = e.val; omega
  | ⟨1, _⟩ => show win1_5.index t (1 : Fin 2) * 30 + 1 * f.val = f.val; omega

/-! ## What each point writes back, and the array after the last point -/

/-- Point `t` writes back block `t` of the pair messages of the arrays the region finds. -/
theorem flushed_eq (c : Dev nD) (t : Fin cfg1.N) :
    (dat1 (F := Ideal) V c).flushed 5 t
      = ((cfg1.win 5).blk t).view.read (Elt Ideal)
          (Cert.PairConv.pairArr (V c main_arg1) (V c main_arg5) (V c main_v4) (V c main_arg6) (V c main_v3)) := by
  show (cfg1.win 5).cut (grid1.coords t) ((dat1 V c).after 5 t) = _
  rw [after1_5]
  unfold out1_5
  rw [View.canon_unit_zero hz]
  simp only [View.ld_unit_zero (S := S5000x100) hz, View.ld_unit_zero (S := S100x60) hz, View.ld_unit_zero (S := S1x60) hz,
    View.ld_unit_zero (S := S5000x60) hz, View.ld_unit_zero (S := S60x30) hz]
  funext j
  obtain ⟨p, q, rfl⟩ : ∃ (p : Fin 5000) (q : Fin 30), j = ix2 p q := ⟨j 0, j 1, eq_ix2 j⟩
  have ht := point_lt t
  obtain ⟨e, he⟩ : ∃ e : Fin 2000000, e.val = 5000 * t.val + p.val := ⟨⟨5000 * t.val + p.val, by omega⟩, rfl⟩
  show k1_pay1 (F := Ideal) (iblk1 V c 0 t) (iblk1 V c 2 t) (iblk1 V c 3 t) (iblk1 V c 1 t) (iblk1 V c 4 t) (ix2 p q) = _
  refine (pay_apply (iblk1 V c 0 t) (iblk1 V c 2 t) (iblk1 V c 3 t) (iblk1 V c 1 t) (iblk1 V c 4 t) p q).trans ?_
  refine Eq.trans ?_ (msg_block _ t p q e he).symm
  show _ = Cert.PairConv.pairAt (V c main_arg1) (V c main_arg5) (V c main_v4) (V c main_arg6) (V c main_v3) e q
  unfold Cert.PairConv.pairAt
  refine congrArg Ideal.tanh (Finset.sum_congr rfl fun h _ => ?_)
  rw [hid_block V c t p h e he, wfc_block V c t h q, bias_block V c t h]
  refine congrArg (fun s => (s + _) * _ * _) (Finset.sum_congr rfl fun k _ => ?_)
  rw [dist_block V c t p k e he, wdf_block V c t k h]

/-- An index of the message array is in point `t`'s block iff each coordinate is in the block's range on its axis. -/
theorem mem_blk (t : Fin cfg1.N) (i : S2000000x30.Idx) :
    i ∈ ((cfg1.win 5).blk t).view.set ↔ ∀ a : Fin 2, win1_5.index t a * S5000x30.size a ≤ (i a).val ∧ (i a).val < win1_5.index t a * S5000x30.size a + S5000x30.size a := by
  show i ∈ ((View.whole main_v5).slice (win1_5.rect t)).set ↔ _
  rw [View.set_slice_whole, Rect.mem_set_unit]
  exact Iff.rfl

/-- Row `r` of the message array is in the block of point `r / 5000`, which writes back. -/
theorem covered (i : S2000000x30.Idx) :
    ∃ t : Fin cfg1.N, (cfg1.win 5).flush t = true ∧ i ∈ ((cfg1.win 5).blk t).view.set := by
  have hi0 : (i 0).val < 2000000 := (i 0).isLt
  have hi1 : (i 1).val < 30 := (i 1).isLt
  obtain ⟨t, ht⟩ : ∃ t : Fin cfg1.N, t.val = (i 0).val / 5000 :=
    ⟨⟨(i 0).val / 5000, (show (i 0).val / 5000 < 400 by omega).trans_eq Gen.N_1.symm⟩, rfl⟩
  obtain ⟨-, -, -, -, -, -, -, -, -, -, e0, e1⟩ := index_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 30 ≤ (i 1).val ∧ (i 1).val < win1_5.index t (1 : Fin 2) * 30 + 30; omega

/-- After the pair pipeline's 400 points the message array holds every pair's message. -/
theorem pair_final (c : Dev nD) :
    (dat1 (F := Ideal) V c).arrAt 5 cfg1.N
      = Cert.PairConv.pairArr (V c main_arg1) (V c main_arg5) (V c main_v4) (V c main_arg6) (V c main_v3) := by
  exact (dat1 V c).arrAt_eq_of_cover 5 _ (fun t _ => flushed_eq V c t) covered

end Cert.KernelIdeal.PairValue

end
-- ==== Proof.KernelResult.lean ====
/-
  The kernel's result as one function of its arguments.

  The run leaves the result buffer at what the last stretch of host operations computes from the two pipelines'
  arrays. The first pipeline's arrays are the specification's hidden vectors and self terms of the features; the
  gathered rows are the hidden rows at the pairs' wrapped source indices — the filling row gather fills nothing when
  every index lies in -100000..99999 —; the second pipeline's array is the specification's messages of those rows.
  So the result is the scatter-sum of the messages over the target atoms, minus the self terms, plus the features.
-/
import proofs.«426173_j76063870812667_1_alg».proof.Proof.RunValue
import proofs.«426173_j76063870812667_1_alg».proof.Proof.HostChain
import proofs.«426173_j76063870812667_1_alg».proof.Proof.AtomValue
import proofs.«426173_j76063870812667_1_alg».proof.Proof.PairValue
import proofs.«426173_j76063870812667_1_alg».proof.Proof.Take
import proofs.«426173_j76063870812667_1_alg».proof.Proof.Spec
import Idealize.ShloMosaic.Lib.ValueLayout

set_option maxRecDepth 16384

noncomputable section

namespace Cert.KernelIdeal.Result

open Cert.KernelIdeal Cert.KernelIdeal.Gen
open Idealize.ShloMosaic Idealize.ShloMosaic.TcCoe Idealize.SL.Sem Idealize.ShloMosaic.ValueIdx
open Cert.PairConv

/-- A bias vector laid out as a one-row matrix. -/
abbrev row (b : FVec Ideal S60 .f32) : FVec Ideal S1x60 .f32 := shapeCast S1x60 b shapeCasts_S60_S1x60

/-- The one row's entries are the vector's. -/
theorem row_apply (b : FVec Ideal S60 .f32) (h : Fin 60) : row b (ix2 0 h) = b (ix1 h) :=
  shapeCast_a_1a_apply b shapeCasts_S60_S1x60 0 h

/-- The result array as one function of the nine argument arrays. -/
def value (a0 : FVec Ideal S100000x30 .f32) (a1 : FVec Ideal S2000000x100 .f32) (a2 a3 : IVec S2000000 32)
    (a4 : FVec Ideal S30x60 .f32) (a5 : FVec Ideal S100x60 .f32) (a6 : FVec Ideal S60x30 .f32)
    (a7 a8 : FVec Ideal S60 .f32) : FVec Ideal S100000x30 .f32 :=
  addf (subf (Host.scatterAdd scatter_S100000x30_S2000000x1_S2000000x30_1_0_0_1
        (broadcastInDim S100000x30 ![] bcast_S_S100000x30 (constant (F := Ideal) S_ .f32 0x00000000#32))
        (broadcastInDim S2000000x1 ![0] bcast_S2000000_S2000000x1_0 a2)
        (pairArr a1 a5 (row a8) a6
          (Host.gather gather_S100000x60_S2000000x1_S2000000x60_1_0_n_n_0_1_160 (hiddenArr a0 a4 (row a7)) (Take.wrapped a3))))
      (selfArr a0 a4 (row a7) (row a8) a6)) a0

variable (m : (ℓ : Loc nD τ sig) → Buf (Elt Ideal) ℓ) (ρ : Dev nD → PrngReg)

/-- Where every source index lies in -100000..99999, the last boundary's contents of the result buffer are `value` of
    the launch contents of the arguments. -/
theorem value_eq (c : Dev nD)
    (hj : ∀ e : S2000000.Idx, -100000 ≤ ((m ((c : Thread nD τ).loc main_arg3)) e).toInt ∧ ((m ((c : Thread nD τ).loc main_arg3)) e).toInt < 100000) :
    W6 m ρ c (Proc.devRef .tc main_v10)
      = value (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) := by
  rw [HostChain.result_eq, PairValue.pair_final (V4 m ρ) c, AtomValue.self_final (V1 m ρ) c,
    HostChain.V4_dist, HostChain.V4_wdf, HostChain.V4_bdf, HostChain.V4_wfc, HostChain.V4_gathered,
    AtomValue.hidden_final (V1 m ρ) c,
    HostChain.V1_feat, HostChain.V1_wcf, HostChain.V1_bcf, HostChain.V1_bdf, HostChain.V1_wfc,
    Take.filled_eq_gather _ _ hj]
  rfl

end Cert.KernelIdeal.Result

end
-- ==== Proof.RefStages.lean ====
/-
  The reference's stages are the specification's arrays.

  The reference computes, on whole arrays, the same formulas the specification states index by index: the hidden
  vectors as one matrix product plus the bias broadcast along the atoms, the self terms and the pair messages as
  tanh of a second product. Reading each stage at an index (a product as the sum over its contracted axis, a
  broadcast at the index it copies) gives the specification's formula at that index. The specification carries a
  bias as a one-row matrix; the reference broadcasts the bias vector itself, so each statement takes the row's
  entries equal to the vector's as a hypothesis.
-/
import proofs.«426173_j76063870812667_1_alg».proof.Proof.Gen.ReferenceIdeal.Run
import proofs.«426173_j76063870812667_1_alg».proof.Proof.Gen.ReferenceIdeal.Read
import proofs.«426173_j76063870812667_1_alg».proof.Proof.Spec
import Idealize.ShloMosaic.Lib.ValueIdx
import Idealize.ShloMosaic.PureOps.Ideal.Laws

noncomputable section

namespace Cert.ReferenceIdeal.Stages

open Cert.ReferenceIdeal Cert.ReferenceIdeal.Gen Cert.ReferenceIdeal.Read
open Idealize.ShloMosaic Idealize.ShloMosaic.ValueIdx
open Cert.PairConv

variable (x0 : FVec Ideal S100000x30 .f32) (x1 : FVec Ideal S2000000x100 .f32) (x2 x3 : IVec S2000000 32)
  (x4 : FVec Ideal S30x60 .f32) (x5 : FVec Ideal S100x60 .f32) (x6 : FVec Ideal S60x30 .f32) (x7 x8 : FVec Ideal S60 .f32)
  (bcf bdf : FVec Ideal S1x60 .f32)

/-! ## The stages' index functions are the coordinate constructors -/

private theorem two_cases {n0 n1 : Nat} {f g : (⟨2, ![n0, n1]⟩ : Shape).Idx} (h0 : f 0 = g 0) (h1 : f 1 = g 1) : f = g :=
  funext fun a => by match a with | ⟨0, _⟩ => exact h0 | ⟨1, _⟩ => exact h1
private theorem one_case {n0 : Nat} {f g : (⟨1, ![n0]⟩ : Shape).Idx} (h0 : f 0 = g 0) : f = g :=
  funext fun a => by match a with | ⟨0, _⟩ => exact h0

theorem lidx4 (i : S100000x60.Idx) (k : Fin 30) : lidx_main_v4 i k = ix2 ⟨(i 0).val, idx2_lt0 i⟩ k := two_cases rfl rfl
theorem ridx4 (i : S100000x60.Idx) (k : Fin 30) : ridx_main_v4 i k = ix2 k ⟨(i 1).val, idx2_lt1 i⟩ := two_cases rfl rfl
theorem bidx6 (i : S100000x60.Idx) : idx_main_v5 (idx_main_v6 i) = ix1 ⟨(i 1).val, idx2_lt1 i⟩ := one_case rfl
theorem lidx21 (i : S100000x30.Idx) (k : Fin 60) : lidx_main_v21 i k = ix2 ⟨(i 0).val, idx2_lt0 i⟩ k := two_cases rfl rfl
theorem ridx21 (i : S100000x30.Idx) (k : Fin 60) : ridx_main_v21 i k = ix2 k ⟨(i 1).val, idx2_lt1 i⟩ := two_cases rfl rfl
theorem bidx19 (i : S100000x60.Idx) : idx_main_v18 (idx_main_v19 i) = ix1 ⟨(i 1).val, idx2_lt1 i⟩ := one_case rfl
theorem lidx16 (i : S2000000x30.Idx) (k : Fin 60) : lidx_main_v16 i k = ix2 ⟨(i 0).val, idx2_lt0 i⟩ k := two_cases rfl rfl
theorem ridx16 (i : S2000000x30.Idx) (k : Fin 60) : ridx_main_v16 i k = ix2 k ⟨(i 1).val, idx2_lt1 i⟩ := two_cases rfl rfl
theorem lidx0 (i : S2000000x60.Idx) (k : Fin 100) : lidx_main_v0 i k = ix2 ⟨(i 0).val, idx2_lt0 i⟩ k := two_cases rfl rfl
theorem ridx0 (i : S2000000x60.Idx) (k : Fin 100) : ridx_main_v0 i k = ix2 k ⟨(i 1).val, idx2_lt1 i⟩ := two_cases rfl rfl
theorem bidx2 (i : S2000000x60.Idx) : idx_main_v1 (idx_main_v2 i) = ix1 ⟨(i 1).val, idx2_lt1 i⟩ := one_case rfl

/-! ## The stages -/

/-- The hidden-vector stage: the product with Wcf plus the bias is `hiddenArr`. -/
theorem hidden_stage (hcf : ∀ h : Fin 60, bcf (ix2 0 h) = x7 (ix1 h)) :
    val_main_v7 (F := Ideal) x0 x4 x7 = hiddenArr x0 x4 bcf := by
  funext i
  rw [val_main_v7_apply, val_main_v4_apply, val_main_v6_apply, val_main_v5_apply]
  unfold hiddenArr hiddenAt
  simp only [lidx4, ridx4, bidx6, hcf, Ideal.addf_def]

/-- The self-term stage: tanh of the product of the scaled hidden vectors with Wfc is `selfArr`. -/
theorem self_stage (hcf : ∀ h : Fin 60, bcf (ix2 0 h) = x7 (ix1 h)) (hdf : ∀ h : Fin 60, bdf (ix2 0 h) = x8 (ix1 h)) :
    val_main_v22 (F := Ideal) x0 x4 x6 x7 x8 = selfArr x0 x4 bcf bdf x6 := by
  funext i
  rw [val_main_v22_apply, val_main_v21_apply]
  unfold selfArr selfAt
  simp only [Ideal.hostUnary_tanh_def]
  refine congrArg Ideal.tanh (Finset.sum_congr rfl fun k _ => ?_)
  rw [val_main_v20_apply, val_main_v19_apply, val_main_v18_apply, hidden_stage x0 x4 x7 bcf hcf]
  simp only [lidx21, ridx21, bidx19, hdf, Ideal.mulf_def]
  rfl

/-- The gathered rows: the row gather of the hidden-vector stage at the wrapped indices. -/
theorem gathered_stage :
    val_main_v14 (F := Ideal) x0 x3 x4 x7
      = Host.gather gather_S100000x60_S2000000x1_S2000000x60_1_0_n_n_0_1_160 (val_main_v7 (F := Ideal) x0 x4 x7) (val_main_v13 (F := Ideal) x3) := rfl

/-- The pair-message stage: tanh of the product with Wfc of (distance projection plus bias) times the gathered rows
    is `pairArr` of those gathered rows. -/
theorem pair_stage (hdf : ∀ h : Fin 60, bdf (ix2 0 h) = x8 (ix1 h)) :
    val_main_v17 (F := Ideal) x0 x1 x3 x4 x5 x6 x7 x8 = pairArr x1 x5 bdf x6 (val_main_v14 (F := Ideal) x0 x3 x4 x7) := by
  funext i
  rw [val_main_v17_apply, val_main_v16_apply]
  unfold pairArr pairAt
  simp only [Ideal.hostUnary_tanh_def]
  refine congrArg Ideal.tanh (Finset.sum_congr rfl fun k _ => ?_)
  rw [val_main_v15_apply, val_main_v3_apply, val_main_v0_apply, val_main_v2_apply, val_main_v1_apply]
  simp only [lidx16, ridx16, lidx0, ridx0, bidx2, hdf, Ideal.mulf_def, Ideal.addf_def]

/-- The result: the scatter-sum of the pair messages over the target atoms, minus the self terms, plus the features. -/
theorem result_stage :
    val_main_v27 (F := Ideal) x0 x1 x2 x3 x4 x5 x6 x7 x8
      = addf (subf (Host.scatterAdd scatter_S100000x30_S2000000x1_S2000000x30_1_0_0_1
            (broadcastInDim S100000x30 ![] bcast_S_S100000x30 (constant (F := Ideal) S_ .f32 0x00000000#32))
            (broadcastInDim S2000000x1 ![0] bcast_S2000000_S2000000x1_0 x2)
            (val_main_v17 (F := Ideal) x0 x1 x3 x4 x5 x6 x7 x8))
          (val_main_v22 (F := Ideal) x0 x4 x6 x7 x8)) x0 := rfl

/-- The reference's whole result over the specification's arrays: the scatter-sum, over the pairs' target atoms, of
    the messages computed from the hidden rows gathered at the wrapped source indices, minus the self terms, plus the
    features. -/
theorem whole (hcf : ∀ h : Fin 60, bcf (ix2 0 h) = x7 (ix1 h)) (hdf : ∀ h : Fin 60, bdf (ix2 0 h) = x8 (ix1 h)) :
    val_main_v27 (F := Ideal) x0 x1 x2 x3 x4 x5 x6 x7 x8
      = addf (subf (Host.scatterAdd scatter_S100000x30_S2000000x1_S2000000x30_1_0_0_1
            (broadcastInDim S100000x30 ![] bcast_S_S100000x30 (constant (F := Ideal) S_ .f32 0x00000000#32))
            (broadcastInDim S2000000x1 ![0] bcast_S2000000_S2000000x1_0 x2)
            (pairArr x1 x5 bdf x6
              (Host.gather gather_S100000x60_S2000000x1_S2000000x60_1_0_n_n_0_1_160 (hiddenArr x0 x4 bcf) (val_main_v13 (F := Ideal) x3))))
          (selfArr x0 x4 bcf bdf x6)) x0 := by
  rw [result_stage, pair_stage x0 x1 x3 x4 x5 x6 x7 x8 bdf hdf, self_stage x0 x4 x6 x7 x8 bcf bdf hcf hdf, gathered_stage,
    hidden_stage x0 x4 x7 bcf hcf]

end Cert.ReferenceIdeal.Stages

end
-- ==== Proof.lean ====
/-
  Atom-pair message passing: a kernel of two pipelines against its whole-array reference, over the extended reals.

  Both programs compute, for 100000 atoms with 30 features and 2000000 atom pairs with 100 distance features,
      hidden[n,h]  = Σ_k feat[n,k]·Wcf[k,h] + bcf[h]
      self[n,f]    = tanh (Σ_h (bdf[h]·hidden[n,h])·Wfc[h,f])
      msg[e,f]     = tanh (Σ_h ((Σ_k dist[e,k]·Wdf[k,h] + bdf[h])·hidden[j[e],h])·Wfc[h,f])
      result[n,f]  = Σ_{e : i[e] = n} msg[e,f] − self[n,f] + feat[n,f].
  The kernel computes hidden and self in a pipeline over blocks of 2000 atoms, gathers the hidden rows on the host,
  computes msg in a pipeline over blocks of 5000 pairs, and scatter-sums on the host; the reference does the same on
  whole arrays. The operations come in the same order on both sides, so no law of the extended reals is needed and the
  finiteness of the float inputs is never used: the two results are the same term once each pipeline's array is read
  as the specification's function (Proof/Spec.lean) of its inputs.
  The one difference is the row gather: the kernel's fills a row whose index, a negative one counted from the end, is
  outside 0..99999 with a fixed word, where the reference's reads a clamped row. Under the precondition's range of the
  source indices, -100000 ≤ j[e] < 100000, nothing is filled and the two gathers are one.
  The three frames: the two kernel programs' are the generated frame certificates; the reference's is its generated
  run with the result dropped. The idealization rewrote nothing, so `preserves` is trivial.
-/
import proofs.«426173_j76063870812667_1_alg».proof.Defs
import proofs.«426173_j76063870812667_1_alg».proof.Proof.Gen.Kernel
import proofs.«426173_j76063870812667_1_alg».proof.Proof.Gen.Kernel.Frame
import proofs.«426173_j76063870812667_1_alg».proof.Proof.Gen.KernelIdeal
import proofs.«426173_j76063870812667_1_alg».proof.Proof.Gen.KernelIdeal.Frame
import proofs.«426173_j76063870812667_1_alg».proof.Proof.Gen.ReferenceIdeal
import proofs.«426173_j76063870812667_1_alg».proof.Proof.Gen.ReferenceIdeal.Run
import proofs.«426173_j76063870812667_1_alg».proof.Proof.Gen.ReferenceIdeal.Read
import proofs.«426173_j76063870812667_1_alg».proof.Proof.Gen.Pre_finite_inputs
import proofs.«426173_j76063870812667_1_alg».proof.Proof.RunValue
import proofs.«426173_j76063870812667_1_alg».proof.Proof.KernelResult
import proofs.«426173_j76063870812667_1_alg».proof.Proof.RefStages
import proofs.«426173_j76063870812667_1_alg».proof.Proof.Take
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at `Result.value` of the arguments: the kernel by its run read through the
    two pipelines, the reference by its run read stage by stage; the arguments agree, and the reference's wrapped
    index column and records are the kernel's. -/
theorem algebraic : Cert.algebraic_KernelIdeal_ReferenceIdeal := by
  intro m ρ m' ρ' hpre hagree
  have hj : ∀ c : Dev Cert.KernelIdeal.nD, ∀ e : Cert.KernelIdeal.S2000000.Idx,
      -100000 ≤ ((m ((c.tc : Thread Cert.KernelIdeal.nD Cert.KernelIdeal.τ).loc Cert.KernelIdeal.main_arg3)) e).toInt ∧ ((m ((c.tc : Thread Cert.KernelIdeal.nD Cert.KernelIdeal.τ).loc Cert.KernelIdeal.main_arg3)) e).toInt < 100000 :=
    fun c => Cert.KernelIdeal.Take.index_range_of_pre _ _ _ _ _ _ _ _ _ (hpre c)
  refine ⟨fun c => Cert.KernelIdeal.Result.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Result.value_eq m ρ c (hj c)), (h c).2⟩)
      (Cert.KernelIdeal.RunValue.run m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8⟩ := hagree c
    rw [e0, e1, e2, e3, e4, e5, e6, e7, e8, Cert.ReferenceIdeal.Read.val_main_v27_eq]
    exact Cert.ReferenceIdeal.Stages.whole _ _ _ _ _ _ _ _ _
      (Cert.KernelIdeal.Result.row _) (Cert.KernelIdeal.Result.row _)
      (Cert.KernelIdeal.Result.row_apply _) (Cert.KernelIdeal.Result.row_apply _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
